-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072 : Shape := ⟨1, ![131072]⟩
abbrev S16384x200 : Shape := ⟨2, ![16384, 200]⟩
abbrev S16384x16384 : Shape := ⟨2, ![16384, 16384]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_

variable [Facts]

def fn {F : FTy → Type} [FloatOps F] (main_arg0 : IVec S131072 32) (main_arg1 : IVec S131072 32) (main_arg2 : IVec S16384x200 32) (main_arg3 : FVec F S16384x200 .f32) (main_arg4 : FVec F S16384x16384 .f32) : IVec S_ 1 :=
  let main_v0 : FVec F S16384x200 .f32 := Host.absf main_arg3
  let main_cst : FVec F S_ .f32 := constant S_ .f32 0x7F800000#32
  let main_v1 : FVec F S16384x200 .f32 := broadcastInDim S16384x200 ![] bcast_S_S16384x200 main_cst
  let main_v2 : IVec S16384x200 1 := cmpf .olt main_v0 main_v1
  let main_c : IVec S_ 1 := constantI S_ 1 1#1
  let main_v3 : IVec S_ 1 := (fun x v => Host.reduce IntOp.andi x v reducesTo_S16384x200_S_d0_1 h_S_) main_v2 main_c
  let main_v4 : FVec F S16384x16384 .f32 := Host.absf main_arg4
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_c_2 : IVec S_ 32 := constantI S_ 32 0#32
  let main_v9 : IVec S16384x200 32 := broadcastInDim S16384x200 ![] bcast_S_S16384x200 main_c_2
  let main_v10 : IVec S16384x200 1 := cmpi .sge main_arg2 main_v9
  let main_c_3 : IVec S_ 32 := constantI S_ 32 16384#32
  let main_v11 : IVec S16384x200 32 := broadcastInDim S16384x200 ![] bcast_S_S16384x200 main_c_3
  let main_v12 : IVec S16384x200 1 := cmpi .slt main_arg2 main_v11
  let main_v13 : IVec S16384x200 1 := andi main_v10 main_v12
  let main_c_4 : IVec S_ 1 := constantI S_ 1 1#1
  let main_v14 : IVec S_ 1 := (fun x v => Host.reduce IntOp.andi x v reducesTo_S16384x200_S_d0_1 h_S_) main_v13 main_c_4
  let main_v15 : IVec S_ 1 := andi main_v8 main_v14
  main_v15
-- ==== Kernel.lean ====
abbrev S131072 : Shape := ⟨1, ![131072]⟩
abbrev S16384x200 : Shape := ⟨2, ![16384, 200]⟩
abbrev S16384x16384 : Shape := ⟨2, ![16384, 16384]⟩
abbrev S16384 : Shape := ⟨1, ![16384]⟩
abbrev S16384x1 : Shape := ⟨2, ![16384, 1]⟩
abbrev S_ : Shape := ⟨0, ![]⟩
abbrev S16384x200x1 : Shape := ⟨3, ![16384, 200, 1]⟩
abbrev S16384x200x2 : Shape := ⟨3, ![16384, 200, 2]⟩
abbrev S1024x2048 : Shape := ⟨2, ![1024, 2048]⟩
abbrev S1024x1024 : Shape := ⟨2, ![1024, 1024]⟩
abbrev S131072x1 : Shape := ⟨2, ![131072, 1]⟩
abbrev S131072x2 : Shape := ⟨2, ![131072, 2]⟩

abbrev nBuf : Space → Nat
  | .hbm => 49
  | .vmem => 7
  | .smem => 0
  | _ => 0

abbrev bufTy : (tb : Table) → Fin (tcTables nBuf tb) → BufTy
  | .hbm, ⟨0, _⟩ => ⟨S131072, .i32⟩
  | .hbm, ⟨1, _⟩ => ⟨S131072, .i32⟩
  | .hbm, ⟨2, _⟩ => ⟨S16384x200, .i32⟩
  | .hbm, ⟨3, _⟩ => ⟨S16384x200, .f32⟩
  | .hbm, ⟨4, _⟩ => ⟨S16384x16384, .f32⟩
  | .hbm, ⟨5, _⟩ => ⟨S16384, .i32⟩
  | .hbm, ⟨6, _⟩ => ⟨S16384x1, .i32⟩
  | .hbm, ⟨7, _⟩ => ⟨S_, .f32⟩
  | .hbm, ⟨8, _⟩ => ⟨S16384x16384, .f32⟩
  | .hbm, ⟨9, _⟩ => ⟨S_, .i32⟩
  | .hbm, ⟨10, _⟩ => ⟨S16384x1, .i32⟩
  | .hbm, ⟨11, _⟩ => ⟨S16384x1, .i1⟩
  | .hbm, ⟨12, _⟩ => ⟨S_, .i32⟩
  | .hbm, ⟨13, _⟩ => ⟨S16384x1, .i32⟩
  | .hbm, ⟨14, _⟩ => ⟨S16384x1, .i32⟩
  | .hbm, ⟨15, _⟩ => ⟨S16384x1, .i32⟩
  | .hbm, ⟨16, _⟩ => ⟨S_, .i32⟩
  | .hbm, ⟨17, _⟩ => ⟨S16384x200, .i32⟩
  | .hbm, ⟨18, _⟩ => ⟨S16384x200, .i1⟩
  | .hbm, ⟨19, _⟩ => ⟨S_, .i32⟩
  | .hbm, ⟨20, _⟩ => ⟨S16384x200, .i32⟩
  | .hbm, ⟨21, _⟩ => ⟨S16384x200, .i32⟩
  | .hbm, ⟨22, _⟩ => ⟨S16384x200, .i32⟩
  | .hbm, ⟨23, _⟩ => ⟨S16384x200, .i32⟩
  | .hbm, ⟨24, _⟩ => ⟨S16384x200x1, .i32⟩
  | .hbm, ⟨25, _⟩ => ⟨S16384x200x1, .i32⟩
  | .hbm, ⟨26, _⟩ => ⟨S16384x200x2, .i32⟩
  | .hbm, ⟨27, _⟩ => ⟨S16384x16384, .f32⟩
  | .hbm, ⟨28, _⟩ => ⟨S16384x16384, .bf16⟩
  | .hbm, ⟨29, _⟩ => ⟨S16384x16384, .bf16⟩
  | .hbm, ⟨30, _⟩ => ⟨S16384x16384, .f32⟩
  | .hbm, ⟨31, _⟩ => ⟨S_, .i32⟩
  | .hbm, ⟨32, _⟩ => ⟨S131072, .i32⟩
  | .hbm, ⟨33, _⟩ => ⟨S131072, .i1⟩
  | .hbm, ⟨34, _⟩ => ⟨S_, .i32⟩
  | .hbm, ⟨35, _⟩ => ⟨S131072, .i32⟩
  | .hbm, ⟨36, _⟩ => ⟨S131072, .i32⟩
  | .hbm, ⟨37, _⟩ => ⟨S131072, .i32⟩
  | .hbm, ⟨38, _⟩ => ⟨S_, .i32⟩
  | .hbm, ⟨39, _⟩ => ⟨S131072, .i32⟩
  | .hbm, ⟨40, _⟩ => ⟨S131072, .i1⟩
  | .hbm, ⟨41, _⟩ => ⟨S_, .i32⟩
  | .hbm, ⟨42, _⟩ => ⟨S131072, .i32⟩
  | .hbm, ⟨43, _⟩ => ⟨S131072, .i32⟩
  | .hbm, ⟨44, _⟩ => ⟨S131072, .i32⟩
  | .hbm, ⟨45, _⟩ => ⟨S131072x1, .i32⟩
  | .hbm, ⟨46, _⟩ => ⟨S131072x1, .i32⟩
  | .hbm, ⟨47, _⟩ => ⟨S131072x2, .i32⟩
  | .hbm, ⟨48, _⟩ => ⟨S131072, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S131072, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 16, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S16384_S16384x1_0 : S16384.BroadcastsInDim S16384x1 (![0] : Fin 1 → Fin S16384x1.rank)
  bcast_S_S16384x16384 : S_.BroadcastsInDim S16384x16384 (![] : Fin 0 → Fin S16384x16384.rank)
  bcast_S_S16384x1 : S_.BroadcastsInDim S16384x1 (![] : Fin 0 → Fin S16384x1.rank)
  bcast_S_S16384x200 : S_.BroadcastsInDim S16384x200 (![] : Fin 0 → Fin S16384x200.rank)
  bcast_S16384x1_S16384x200_0_1 : S16384x1.BroadcastsInDim S16384x200 (![0, 1] : Fin 2 → Fin S16384x200.rank)
  bcast_S16384x200_S16384x200x1_0_1 : S16384x200.BroadcastsInDim S16384x200x1 (![0, 1] : Fin 2 → Fin S16384x200x1.rank)
  concatenates_S16384x200x1_S16384x200x1_S16384x200x2_d2 : Shape.Concatenates [S16384x200x1, S16384x200x1] S16384x200x2 2
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  scatter_S16384x16384_S16384x200x2_S16384x200_n_01_01_2_wf : ScatterDims.WF S16384x16384 S16384x200x2 S16384x200 [] [0, 1] [0, 1] 2
  dot_S1024x2048_S1024x2048_S1024x1024_1_1_0_0_n_n_wf : DotDims.WF S1024x2048 S1024x2048 S1024x1024 [1] [1] [0] [0] [] []
  gather_S16384x16384_S131072x2_S131072_n_01_n_n_01_1_11_wf : GatherDims.WF S16384x16384 S131072x2 S131072 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .bf16 = 32 ∨ (Rect.block (s := S16384x16384) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x16384.size a
  hwx0_1 : ∀ i : grid0.Coords, EltTy.bits .bf16 = 32 ∨ (Rect.block (s := S16384x16384) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x16384.size a
  hwx0_2 : ∀ i : grid0.Coords, EltTy.bits .f32 = 32 ∨ (Rect.block (s := S16384x16384) S1024x1024.size (cc0_transform_2 i) (hinb0_2 i)).WholeWords (EltTy.packing .f32)

variable [Facts₀]

def scatter_S16384x16384_S16384x200x2_S16384x200_n_01_01_2 : ScatterDims S16384x16384 S16384x200x2 S16384x200 where
  updateWindowDims := []
  insertedWindowDims := [0, 1]
  scatterDimsToOperandDims := [0, 1]
  indexVectorDim := 2
  wf := scatter_S16384x16384_S16384x200x2_S16384x200_n_01_01_2_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf
def gather_S16384x16384_S131072x2_S131072_n_01_n_n_01_1_11 : GatherDims S16384x16384 S131072x2 S131072 where
  offsetDims := []
  collapsedSliceDims := [0, 1]
  operandBatchingDims := []
  startIndicesBatchingDims := []
  startIndexMap := [0, 1]
  indexVectorDim := 1
  sliceSizes := ![1, 1]
  wf := gather_S16384x16384_S131072x2_S131072_n_01_n_n_01_1_11_wf

abbrev win0_0 : Pipeline.Window sig grid0 :=
  Pipeline.Window.ofSpec (Memref.whole main_v18) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S131072 : Shape := ⟨1, ![131072]⟩
abbrev S16384x200 : Shape := ⟨2, ![16384, 200]⟩
abbrev S16384x16384 : Shape := ⟨2, ![16384, 16384]⟩
abbrev S_ : Shape := ⟨0, ![]⟩
abbrev S131072x1 : Shape := ⟨2, ![131072, 1]⟩
abbrev S131072x200 : Shape := ⟨2, ![131072, 200]⟩
abbrev S131072x200x1 : Shape := ⟨3, ![131072, 200, 1]⟩
abbrev S131072x200x2 : Shape := ⟨3, ![131072, 200, 2]⟩

abbrev nBuf : Space → Nat
  | .hbm => 46
  | .vmem => 0
  | .smem => 0
  | _ => 0

abbrev bufTy : (tb : Table) → Fin (tcTables nBuf tb) → BufTy
  | .hbm, ⟨0, _⟩ => ⟨S131072, .i32⟩
  | .hbm, ⟨1, _⟩ => ⟨S131072, .i32⟩
  | .hbm, ⟨2, _⟩ => ⟨S16384x200, .i32⟩
  | .hbm, ⟨3, _⟩ => ⟨S16384x200, .f32⟩
  | .hbm, ⟨4, _⟩ => ⟨S16384x16384, .f32⟩
  | .hbm, ⟨5, _⟩ => ⟨S_, .i32⟩
  | .hbm, ⟨6, _⟩ => ⟨S131072, .i32⟩
  | .hbm, ⟨7, _⟩ => ⟨S131072, .i1⟩
  | .hbm, ⟨8, _⟩ => ⟨S_, .i32⟩
  | .hbm, ⟨9, _⟩ => ⟨S131072, .i32⟩
  | .hbm, ⟨10, _⟩ => ⟨S131072, .i32⟩
  | .hbm, ⟨11, _⟩ => ⟨S131072, .i32⟩
  | .hbm, ⟨12, _⟩ => ⟨S131072x1, .i32⟩
  | .hbm, ⟨13, _⟩ => ⟨S131072x200, .i32⟩
  | .hbm, ⟨14, _⟩ => ⟨S_, .i32⟩
  | .hbm, ⟨15, _⟩ => ⟨S131072, .i32⟩
  | .hbm, ⟨16, _⟩ => ⟨S131072, .i1⟩
  | .hbm, ⟨17, _⟩ => ⟨S_, .i32⟩
  | .hbm, ⟨18, _⟩ => ⟨S131072, .i32⟩
  | .hbm, ⟨19, _⟩ => ⟨S131072, .i32⟩
  | .hbm, ⟨20, _⟩ => ⟨S131072, .i32⟩
  | .hbm, ⟨21, _⟩ => ⟨S131072x1, .i32⟩
  | .hbm, ⟨22, _⟩ => ⟨S131072x200, .f32⟩
  | .hbm, ⟨23, _⟩ => ⟨S131072x1, .i32⟩
  | .hbm, ⟨24, _⟩ => ⟨S_, .i32⟩
  | .hbm, ⟨25, _⟩ => ⟨S131072x1, .i32⟩
  | .hbm, ⟨26, _⟩ => ⟨S131072x1, .i1⟩
  | .hbm, ⟨27, _⟩ => ⟨S_, .i32⟩
  | .hbm, ⟨28, _⟩ => ⟨S131072x1, .i32⟩
  | .hbm, ⟨29, _⟩ => ⟨S131072x1, .i32⟩
  | .hbm, ⟨30, _⟩ => ⟨S131072x1, .i32⟩
  | .hbm, ⟨31, _⟩ => ⟨S_, .i32⟩
  | .hbm, ⟨32, _⟩ => ⟨S131072x200, .i32⟩
  | .hbm, ⟨33, _⟩ => ⟨S131072x200, .i1⟩
  | .hbm, ⟨34, _⟩ => ⟨S_, .i32⟩
  | .hbm, ⟨35, _⟩ => ⟨S131072x200, .i32⟩
  | .hbm, ⟨36, _⟩ => ⟨S131072x200, .i32⟩
  | .hbm, ⟨37, _⟩ => ⟨S131072x200, .i32⟩
  | .hbm, ⟨38, _⟩ => ⟨S131072x200, .i32⟩
  | .hbm, ⟨39, _⟩ => ⟨S131072x200x1, .i32⟩
  | .hbm, ⟨40, _⟩ => ⟨S131072x200x1, .i32⟩
  | .hbm, ⟨41, _⟩ => ⟨S131072x200x2, .i32⟩
  | .hbm, ⟨42, _⟩ => ⟨S131072x200, .f32⟩
  | .hbm, ⟨43, _⟩ => ⟨S131072x200, .f32⟩
  | .hbm, ⟨44, _⟩ => ⟨S_, .f32⟩
  | .hbm, ⟨45, _⟩ => ⟨S131072, .f32⟩
  | _, _ => ⟨S131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S_S131072x200 : S_.BroadcastsInDim S131072x200 (![] : Fin 0 → Fin S131072x200.rank)
  bcast_S131072x1_S131072x200_0_1 : S131072x1.BroadcastsInDim S131072x200 (![0, 1] : Fin 2 → Fin S131072x200.rank)
  bcast_S131072x200_S131072x200x1_0_1 : S131072x200.BroadcastsInDim S131072x200x1 (![0, 1] : Fin 2 → Fin S131072x200x1.rank)
  concatenates_S131072x200x1_S131072x200x1_S131072x200x2_d2 : Shape.Concatenates [S131072x200x1, S131072x200x1] S131072x200x2 2
  reducesTo_S131072x200_S131072_d1 : S131072x200.ReducesTo [1] S131072
  h_S_ : 0 < S_.numel
  gather_S16384x200_S131072x1_S131072x200_1_0_n_n_0_1_1200_wf : GatherDims.WF S16384x200 S131072x1 S131072x200 [1] [0] [] [0] [] 1 ![1, 200]
  gather_S16384x16384_S131072x200x2_S131072x200_n_01_n_n_01_2_11_wf : GatherDims.WF S16384x16384 S131072x200x2 S131072x200 [] [0, 1] [] [0, 1] [] 2 ![1, 1]

variable [Facts₀]

def gather_S16384x200_S131072x1_S131072x200_1_0_n_n_0_1_1200 : GatherDims S16384x200 S131072x1 S131072x200 where
  offsetDims := [1]
  collapsedSliceDims := [0]
  operandBatchingDims := []
  startIndicesBatchingDims := []
  startIndexMap := [0]
  indexVectorDim := 1
  sliceSizes := ![1, 200]
  wf := gather_S16384x200_S131072x1_S131072x200_1_0_n_n_0_1_1200_wf
def gather_S16384x16384_S131072x200x2_S131072x200_n_01_n_n_01_2_11 : GatherDims S16384x16384 S131072x200x2 S131072x200 where
  offsetDims := []
  collapsedSliceDims := [0, 1]
  operandBatchingDims := []
  startIndicesBatchingDims := []
  startIndexMap := [0, 1]
  indexVectorDim := 2
  sliceSizes := ![1, 1]
  wf := gather_S16384x16384_S131072x200x2_S131072x200_n_01_n_n_01_2_11_wf

class Facts : Prop extends Facts₀ where

variable [Facts]
-- ==== Proof.Spec.lean ====
/-
  The mathematics of the item-kNN score, with no program in sight.

  A query b carries a user word u b and an item word i b. jax wraps a negative index word by the
  extent 16384 and StableHLO's gather clamps the start index into [0, 16383]; `sel` is the two
  together, the row (or column) an index word finally selects.

  The reference's score of query b is
      0 + ∑ k < 200,  sim[I, k] · R[U, sel (idx[I, k])]        with U = sel (u b), I = sel (i b).

  The kernel first scatters the similarities into a dense 16384 × 16384 matrix
      dense[q, j] = 0 + ∑ { k | sel (idx[q, k]) = j } sim[q, k],
  then forms R · denseᵀ by accumulating eight column blocks of width 2048 into a zeroed
  accumulator (`accum`), and last picks entry (U, I) of the product (`kscore`).
-/
import Idealize.ShloMosaic.Lib.ValueIdx

noncomputable section

open scoped BigOperators

namespace Cert.Knn

open Idealize.ShloMosaic Idealize.ShloMosaic.ValueIdx

/-- The queries: 131072 of them. -/
abbrev SQ : Shape := ⟨1, ![131072]⟩
/-- The neighbour lists: 200 entries for each of the 16384 items. -/
abbrev SL : Shape := ⟨2, ![16384, 200]⟩
/-- A 16384 × 16384 matrix (the user–item profile matrix, the dense similarity matrix, their product). -/
abbrev SM : Shape := ⟨2, ![16384, 16384]⟩

/-- jax's wrap of an index word along an axis of extent 16384: a word below zero gets the extent added. -/
def wrap (w : BitVec 32) : BitVec 32 := Scalar.select (IntOp.cmpi .slt w 0#32) (IntOp.addi w 16384#32) w

/-- A gather's clamp of a start-index word, read signed, into `[0, 16383]`. -/
def clamp (w : BitVec 32) : Fin 16384 := ⟨min w.toInt.toNat 16383, by omega⟩

/-- The row or column an index word selects: wrapped, then clamped. -/
def sel (w : BitVec 32) : Fin 16384 := clamp (wrap w)

/-- An index word that reads, signed, as an index of an axis of extent 16384. -/
def InRange (w : BitVec 32) : Prop := 0 ≤ w.toInt ∧ w.toInt < 16384

/-- An extended real that is a real number. -/
def IsReal (x : EReal) : Prop := ∃ r : ℝ, x = (r : EReal)

/-- THE REFERENCE'S SCORE of query `b`: zero plus the sum over item `I`'s neighbour list of the similarity
    times the profile entry of user `U` at the neighbour. -/
def score (u i : SQ.Idx → BitVec 32) (idx : SL.Idx → BitVec 32) (sim : SL.Idx → EReal) (R : SM.Idx → EReal) :
    SQ.Idx → EReal :=
  fun b => 0 + ∑ k : Fin 200, sim (ix2 (sel (i b)) k) * R (ix2 (sel (u b)) (sel (idx (ix2 (sel (i b)) k))))

/-- Entry `(q, j)` of the dense similarity matrix: zero plus the similarities of item `q`'s list entries
    whose neighbour is `j`. -/
def denseAt (idx : SL.Idx → BitVec 32) (sim : SL.Idx → EReal) (q j : Fin 16384) : EReal :=
  0 + ∑ k ∈ Finset.univ.filter (fun k : Fin 200 => sel (idx (ix2 q k)) = j), sim (ix2 q k)

/-- The dense similarity matrix as an array. -/
def dense (idx : SL.Idx → BitVec 32) (sim : SL.Idx → EReal) : SM.Idx → EReal :=
  fun p => denseAt idx sim ⟨(p 0).val, idx2_lt0 p⟩ ⟨(p 1).val, idx2_lt1 p⟩

/-- Column `2048 · kk + l` of a 16384-wide row (taken modulo the width, so that it is total in `kk`). -/
def col (kk : ℕ) (l : Fin 2048) : Fin 16384 := ⟨(2048 * kk + l.val) % 16384, Nat.mod_lt _ (by decide)⟩

/-- Column block `kk`'s share of entry `(p, q)` of `A · Bᵀ`. -/
def part (A B : SM.Idx → EReal) (p q : Fin 16384) (kk : ℕ) : EReal :=
  ∑ l : Fin 2048, A (ix2 p (col kk l)) * B (ix2 q (col kk l))

/-- The accumulator's entry `(p, q)` after column block `n`: it starts from a stored zero. -/
def accum (A B : SM.Idx → EReal) (p q : Fin 16384) : ℕ → EReal
  | 0 => 0 + part A B p q 0
  | n + 1 => accum A B p q n + part A B p q (n + 1)

/-- `A · Bᵀ` as the kernel forms it: the accumulator after the eighth column block. -/
def gram (A B : SM.Idx → EReal) : SM.Idx → EReal :=
  fun y => accum A B ⟨(y 0).val, idx2_lt0 y⟩ ⟨(y 1).val, idx2_lt1 y⟩ 7

/-- THE KERNEL'S SCORE of query `b`: entry `(U, I)` of `R · denseᵀ`. -/
def kscore (u i : SQ.Idx → BitVec 32) (idx : SL.Idx → BitVec 32) (sim : SL.Idx → EReal) (R : SM.Idx → EReal) :
    SQ.Idx → EReal :=
  fun b => gram R (dense idx sim) (ix2 (sel (u b)) (sel (i b)))

end Cert.Knn

end
-- ==== Proof.Algebra.lean ====
/-
  The law that joins the two sides: for real-valued similarities and profile entries, entry (U, I) of
  R · denseᵀ, accumulated over eight column blocks, is the reference's neighbour sum.

  Three steps. (1) The eight column blocks of width 2048 enumerate the 16384 columns exactly once, so the
  accumulator after the eighth block is the full row-by-row product ∑ j, A[p, j] · B[q, j]; this uses only
  that + on the extended reals is commutative and associative and that 0 + x = x. (2) Every value is a
  real number, so the whole expression is the image of a real expression: distributivity, which fails at
  the infinities of the extended reals, is used in ℝ only. (3) In ℝ,
      ∑ j, r j · ∑ { k | c k = j } s k  =  ∑ j, ∑ { k | c k = j } s k · r (c k)  =  ∑ k, s k · r (c k):
  the fibres of c partition the index set of k.
-/
import proofs.«400773_j62405874811872_1_alg».proof.Proof.Spec

noncomputable section

open scoped BigOperators

namespace Cert.Knn

open Idealize.ShloMosaic Idealize.ShloMosaic.ValueIdx

/-- Regrouping in ℝ: a sum over j of r j times the sum of s over the fibre of c above j is the sum over k
    of s k · r (c k). -/
theorem real_regroup {J K : Type} [Fintype J] [Fintype K] [DecidableEq J] (c : K → J) (r : J → ℝ) (s : K → ℝ) :
    ∑ j, r j * ∑ k ∈ Finset.univ.filter (fun k => c k = j), s k = ∑ k, s k * r (c k) := by
  simp only [Finset.mul_sum]
  rw [← Finset.sum_fiberwise Finset.univ c (fun k => s k * r (c k))]
  refine Finset.sum_congr rfl fun j _ => Finset.sum_congr rfl fun k hk => ?_
  rw [(Finset.mem_filter.1 hk).2, mul_comm]

/-- The coercion of a finite real sum into the extended reals is the sum of the coercions. -/
theorem coe_sum_ereal {ι : Type} (s : Finset ι) (f : ι → ℝ) :
    ((∑ i ∈ s, f i : ℝ) : EReal) = ∑ i ∈ s, (f i : EReal) := by
  classical
  refine Finset.induction_on s (by simp) fun a t ha ih => ?_
  rw [Finset.sum_insert ha, Finset.sum_insert ha, EReal.coe_add, ih]

/-- The 16384 columns as eight blocks of 2048. -/
def blockEquiv : Fin 8 × Fin 2048 ≃ Fin 16384 where
  toFun x := ⟨2048 * x.1.val + x.2.val, by have := x.1.isLt; have := x.2.isLt; omega⟩
  invFun j := (⟨j.val / 2048, by have := j.isLt; omega⟩, ⟨j.val % 2048, by omega⟩)
  left_inv x := by
    have h1 := x.1.isLt; have h2 := x.2.isLt
    refine Prod.ext (Fin.ext ?_) (Fin.ext ?_)
    · show (2048 * x.1.val + x.2.val) / 2048 = x.1.val
      omega
    · show (2048 * x.1.val + x.2.val) % 2048 = x.2.val
      omega
  right_inv j := by
    refine Fin.ext ?_
    show 2048 * (j.val / 2048) + j.val % 2048 = j.val
    omega

/-- Column l of block kk, for kk < 8, is the block enumeration's column. -/
theorem col_eq_block (kk : Fin 8) (l : Fin 2048) : col kk.val l = blockEquiv (kk, l) := by
  have h1 := kk.isLt; have h2 := l.isLt
  refine Fin.ext ?_
  show (2048 * kk.val + l.val) % 16384 = 2048 * kk.val + l.val
  omega

/-- A sum over the 16384 columns is the sum of the eight column-block sums. -/
theorem sum_blocks (f : Fin 16384 → EReal) :
    ∑ j, f j = ∑ kk : Fin 8, ∑ l : Fin 2048, f (col kk.val l) := by
  rw [← Equiv.sum_comp blockEquiv f, Fintype.sum_prod_type]
  refine Finset.sum_congr rfl fun kk _ => Finset.sum_congr rfl fun l _ => ?_
  rw [col_eq_block]

/-- The accumulator after the eighth block is the full product entry. -/
theorem accum_seven (A B : SM.Idx → EReal) (p q : Fin 16384) :
    accum A B p q 7 = ∑ j, A (ix2 p j) * B (ix2 q j) := by
  rw [sum_blocks (fun j => A (ix2 p j) * B (ix2 q j)), Fin.sum_univ_eight]
  simp only [accum, part, zero_add]
  rfl

/-- The kernel's score is the reference's, when every similarity and every profile entry is a real number. -/
theorem kscore_eq_score (u i : SQ.Idx → BitVec 32) (idx : SL.Idx → BitVec 32) (sim : SL.Idx → EReal) (R : SM.Idx → EReal)
    (hsim : ∀ y, IsReal (sim y)) (hR : ∀ y, IsReal (R y)) :
    kscore u i idx sim R = score u i idx sim R := by
  choose rs hrs using hsim
  choose rR hrR using hR
  funext b
  show accum R (dense idx sim) (sel (u b)) (sel (i b)) 7 = _
  rw [accum_seven]
  show ∑ j, R (ix2 (sel (u b)) j) * denseAt idx sim (sel (i b)) j = _
  -- the dense entry is the image of a real fibre sum
  have hD : ∀ j, denseAt idx sim (sel (i b)) j
      = ((∑ k ∈ Finset.univ.filter (fun k : Fin 200 => sel (idx (ix2 (sel (i b)) k)) = j), rs (ix2 (sel (i b)) k) : ℝ) : EReal) := by
    intro j
    unfold denseAt
    rw [zero_add, coe_sum_ereal]
    exact Finset.sum_congr rfl fun k _ => hrs _
  calc ∑ j, R (ix2 (sel (u b)) j) * denseAt idx sim (sel (i b)) j
      = ∑ j, ((rR (ix2 (sel (u b)) j)
          * ∑ k ∈ Finset.univ.filter (fun k : Fin 200 => sel (idx (ix2 (sel (i b)) k)) = j), rs (ix2 (sel (i b)) k) : ℝ) : EReal) := by
        refine Finset.sum_congr rfl fun j _ => ?_
        rw [hD, hrR, EReal.coe_mul]
    _ = ((∑ j, rR (ix2 (sel (u b)) j)
          * ∑ k ∈ Finset.univ.filter (fun k : Fin 200 => sel (idx (ix2 (sel (i b)) k)) = j), rs (ix2 (sel (i b)) k) : ℝ) : EReal) :=
        (coe_sum_ereal _ _).symm
    _ = ((∑ k : Fin 200, rs (ix2 (sel (i b)) k) * rR (ix2 (sel (u b)) (sel (idx (ix2 (sel (i b)) k)))) : ℝ) : EReal) := by
        rw [real_regroup (fun k : Fin 200 => sel (idx (ix2 (sel (i b)) k))) (fun j => rR (ix2 (sel (u b)) j))
          (fun k => rs (ix2 (sel (i b)) k))]
    _ = ∑ k : Fin 200, ((rs (ix2 (sel (i b)) k) * rR (ix2 (sel (u b)) (sel (idx (ix2 (sel (i b)) k)))) : ℝ) : EReal) :=
        coe_sum_ereal _ _
    _ = score u i idx sim R b := by
        unfold score
        rw [zero_add]
        refine Finset.sum_congr rfl fun k _ => ?_
        rw [EReal.coe_mul, hrs, hrR]

end Cert.Knn

end
-- ==== Proof.PreDecode.lean ====
/-
  What the precondition says of the argument arrays: every neighbour index word is in range, and every
  similarity and every profile entry is a real number.

  The precondition is a conjunction of three "for all elements" statements, each an and-reduction of a
  one-bit array to a single bit that is stated to be 1:
    * |sim[q, k]| < +∞ for every entry of the similarity array,
    * |R[p, j]| < +∞ for every entry of the profile matrix,
    * 0 ≤ idx[q, k] and idx[q, k] < 16384, read signed, for every neighbour index word.
  An and-reduction over all axes that is 1 had a 1 at every element; an extended real whose absolute
  value max x (-x) is strictly below +∞ is neither +∞ nor -∞, hence a real; and the two signed word
  comparisons against 0 and 16384 are the two inequalities of `InRange`.
-/
import proofs.«400773_j62405874811872_1_alg».proof.Proof.Gen.Pre_finite_inputs
import proofs.«400773_j62405874811872_1_alg».proof.Proof.Spec
import Idealize.ShloMosaic.Lib.ReduceAll
import Idealize.ShloMosaic.Lib.StableHlo.Predicate

noncomputable section

open scoped BigOperators

namespace Cert.Knn

open Idealize.ShloMosaic Idealize.ShloMosaic.ValueIdx

/-- The rank-0 shape has one index. -/
instance subsingleton_scalar_idx : Subsingleton Cert.Pre_finite_inputs.S_.Idx :=
  ⟨fun a b => funext fun d => d.elim0⟩

/-- The f32 pattern 0x7F800000 (exponent all ones, fraction zero, sign clear) denotes +∞. -/
theorem inf_bits : Ideal.ofBits .f32 0x7F800000#32 = (⊤ : EReal) := by
  simp [Ideal.ofBits, Ideal.ieee]

/-- An extended real whose absolute value is strictly below +∞ is a real number. -/
theorem isReal_of_abs_lt (x : EReal) (hx : Ideal.cmp .olt (max x (-x)) (⊤ : EReal) = 1#1) : IsReal x := by
  induction x using EReal.rec with
  | bot => simp [Ideal.cmp] at hx
  | top => simp [Ideal.cmp] at hx
  | coe r => exact ⟨r, rfl⟩

/-- A word that compares signed-at-least 0 and signed-below 16384 is in range. -/
theorem inRange_of (w : BitVec 32) (h1 : IntOp.cmpi .sge w 0#32 = 1#1) (h2 : IntOp.cmpi .slt w 16384#32 = 1#1) :
    InRange w := by
  unfold IntOp.cmpi at h1 h2
  simp only [StableHlo.Predicate.ofBool_eq_one_iff] at h1 h2
  rw [BitVec.sle_iff_toInt_le] at h1
  rw [BitVec.slt_iff_toInt_lt] at h2
  have e0 : (0#32 : BitVec 32).toInt = 0 := by decide
  have e1 : (16384#32 : BitVec 32).toInt = 16384 := by decide
  rw [e0] at h1
  rw [e1] at h2
  exact ⟨h1, h2⟩

/-- The precondition, decoded. -/
theorem decode (a0 a1 : IVec SQ 32) (a2 : IVec SL 32) (a3 : FVec Ideal SL .f32) (a4 : FVec Ideal SM .f32)
    (h : Cert.Pre_finite_inputs.fn (F := Ideal) a0 a1 a2 a3 a4 = fun _ => 1#1) :
    (∀ y, InRange (a2 y)) ∧ (∀ y, IsReal (a3 y)) ∧ (∀ y, IsReal (a4 y)) := by
  have h0 := congrFun h ValueIdx.ix0
  dsimp only [Cert.Pre_finite_inputs.fn] at h0
  obtain ⟨h01, hidx⟩ := IntOp.andi_eq_one.1 h0
  obtain ⟨hsim, hR⟩ := IntOp.andi_eq_one.1 h01
  refine ⟨fun y => ?_, fun y => ?_, fun y => ?_⟩
  · have e := Host.reduce_andi_all _ _ _ _ _ hidx y
    obtain ⟨e1, e2⟩ := IntOp.andi_eq_one.1 e
    exact inRange_of (a2 y) e1 e2
  · have e := Host.reduce_andi_all _ _ _ _ _ hsim y
    refine isReal_of_abs_lt (a3 y) ?_
    rw [← inf_bits]
    exact e
  · have e := Host.reduce_andi_all _ _ _ _ _ hR y
    refine isReal_of_abs_lt (a4 y) ?_
    rw [← inf_bits]
    exact e

end Cert.Knn

end
-- ==== Proof.Gather.lean ====
/-
  The three gathers of the two programs read at an index: each reads its operand at the start-index words,
  read signed and clamped into the axis.
-/
import proofs.«400773_j62405874811872_1_alg».proof.Proof.Gen.KernelIdeal
import proofs.«400773_j62405874811872_1_alg».proof.Proof.Gen.ReferenceIdeal
import proofs.«400773_j62405874811872_1_alg».proof.Proof.Spec

noncomputable section

open scoped BigOperators

namespace Cert.Knn

open Idealize.ShloMosaic Idealize.ShloMosaic.ValueIdx

/-- The reference's row gather (`nbr_idx[i]`, `nbr_sim[i]`): row `b` of the result is the operand's row at the clamped word. -/
theorem rows_apply {α : Type} (x : Cert.ReferenceIdeal.S16384x200.Idx → α) (idx : IVec Cert.ReferenceIdeal.S131072x1 32) (b : Fin 131072) (k : Fin 200) :
    Host.gather Cert.ReferenceIdeal.gather_S16384x200_S131072x1_S131072x200_1_0_n_n_0_1_1200 x idx (ix2 b k)
      = x (ix2 (clamp (idx (ix2 b (0 : Fin 1)))) k) := by
  unfold Host.gather
  congr 1
  funext a
  refine Fin.ext ?_
  match a with
  | ⟨0, _⟩ =>
    show Cert.ReferenceIdeal.gather_S16384x200_S131072x1_S131072x200_1_0_n_n_0_1_1200.start (ix2 b k) idx 0
      + Cert.ReferenceIdeal.gather_S16384x200_S131072x1_S131072x200_1_0_n_n_0_1_1200.batchCoord (ix2 b k) 0
      + Cert.ReferenceIdeal.gather_S16384x200_S131072x1_S131072x200_1_0_n_n_0_1_1200.offCoord (ix2 b k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S16384x200_S131072x1_S131072x200_1_0_n_n_0_1_1200.startIndexMap from List.mem_singleton.mpr rfl)]
    have hsi : Cert.ReferenceIdeal.gather_S16384x200_S131072x1_S131072x200_1_0_n_n_0_1_1200.siIdx (ix2 b k)
        ⟨List.idxOf (0 : Fin 2) Cert.ReferenceIdeal.gather_S16384x200_S131072x1_S131072x200_1_0_n_n_0_1_1200.startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show Cert.ReferenceIdeal.gather_S16384x200_S131072x1_S131072x200_1_0_n_n_0_1_1200.start (ix2 b k) idx 1
      + Cert.ReferenceIdeal.gather_S16384x200_S131072x1_S131072x200_1_0_n_n_0_1_1200.batchCoord (ix2 b k) 1
      + Cert.ReferenceIdeal.gather_S16384x200_S131072x1_S131072x200_1_0_n_n_0_1_1200.offCoord (ix2 b k) 1 = _
    rw [GatherDims.batchCoord_eq_zero _ _ _ List.not_mem_nil]
    have hns : (1 : Fin 2) ∉ Cert.ReferenceIdeal.gather_S16384x200_S131072x1_S131072x200_1_0_n_n_0_1_1200.startIndexMap := by
      show (1 : Fin 2) ∉ [(0 : Fin 2)]
      decide
    have hk : (1 : Fin 2) ∈ Cert.ReferenceIdeal.gather_S16384x200_S131072x1_S131072x200_1_0_n_n_0_1_1200.sKept :=
      (GatherDims.mem_sKept _ _).mpr ⟨by show (1 : Fin 2) ∉ [(0 : Fin 2)]; decide, List.not_mem_nil⟩
    unfold GatherDims.start GatherDims.offCoord
    rw [dif_neg hns, dif_pos hk]
    have hsk : Cert.ReferenceIdeal.gather_S16384x200_S131072x1_S131072x200_1_0_n_n_0_1_1200.sKept = [(1 : Fin 2)] := by decide
    have hi : List.idxOf (1 : Fin 2) Cert.ReferenceIdeal.gather_S16384x200_S131072x1_S131072x200_1_0_n_n_0_1_1200.sKept = 0 := by rw [hsk]; decide
    have ho : ∀ (n : Nat) (h : n < Cert.ReferenceIdeal.gather_S16384x200_S131072x1_S131072x200_1_0_n_n_0_1_1200.offsetDims.length), n = 0 → Cert.ReferenceIdeal.gather_S16384x200_S131072x1_S131072x200_1_0_n_n_0_1_1200.offsetDims[n]'h = (1 : Fin 2) := by
      intro n h hn; subst hn; rfl
    rw [ho _ _ hi]
    simp only [Nat.zero_add]

/-- The reference's point gather (`R[u[:, None], idx]`): entry `(b, k)` is the operand at the two clamped words. -/
theorem pick3_apply {α : Type} (x : Cert.ReferenceIdeal.S16384x16384.Idx → α) (idx : IVec Cert.ReferenceIdeal.S131072x200x2 32) (b : Fin 131072) (k : Fin 200) :
    Host.gather Cert.ReferenceIdeal.gather_S16384x16384_S131072x200x2_S131072x200_n_01_n_n_01_2_11 x idx (ix2 b k)
      = x (ix2 (clamp (idx (ix3 b k (0 : Fin 2)))) (clamp (idx (ix3 b k (1 : Fin 2))))) := by
  unfold Host.gather
  congr 1
  funext a
  refine Fin.ext ?_
  match a with
  | ⟨0, _⟩ =>
    show Cert.ReferenceIdeal.gather_S16384x16384_S131072x200x2_S131072x200_n_01_n_n_01_2_11.start (ix2 b k) idx 0 + Cert.ReferenceIdeal.gather_S16384x16384_S131072x200x2_S131072x200_n_01_n_n_01_2_11.batchCoord (ix2 b k) 0 + Cert.ReferenceIdeal.gather_S16384x16384_S131072x200x2_S131072x200_n_01_n_n_01_2_11.offCoord (ix2 b k) 0 = _
    have hm : (0 : Fin 2) ∈ Cert.ReferenceIdeal.gather_S16384x16384_S131072x200x2_S131072x200_n_01_n_n_01_2_11.startIndexMap := by
      show (0 : Fin 2) ∈ [(0 : Fin 2), (1 : Fin 2)]
      decide
    have hc : (0 : Fin 2) ∈ Cert.ReferenceIdeal.gather_S16384x16384_S131072x200x2_S131072x200_n_01_n_n_01_2_11.collapsedSliceDims := by
      show (0 : Fin 2) ∈ [(0 : Fin 2), (1 : Fin 2)]
      decide
    rw [GatherDims.batchCoord_eq_zero _ _ _ List.not_mem_nil,
      GatherDims.offCoord_eq_zero _ _ _ (fun h => ((GatherDims.mem_sKept _ _).mp h).1 hc)]
    simp only [Nat.add_zero]
    unfold GatherDims.start
    rw [dif_pos hm]
    have hsi : Cert.ReferenceIdeal.gather_S16384x16384_S131072x200x2_S131072x200_n_01_n_n_01_2_11.siIdx (ix2 b k) ⟨List.idxOf (0 : Fin 2) Cert.ReferenceIdeal.gather_S16384x16384_S131072x200x2_S131072x200_n_01_n_n_01_2_11.startIndexMap, List.idxOf_lt_length_iff.2 hm⟩
        = ix3 b k (0 : Fin 2) := by
      funext c; refine Fin.ext ?_
      match c with
      | ⟨0, _⟩ => rfl
      | ⟨1, _⟩ => rfl
      | ⟨2, _⟩ => rfl
    rw [hsi]
    rfl
  | ⟨1, _⟩ =>
    show Cert.ReferenceIdeal.gather_S16384x16384_S131072x200x2_S131072x200_n_01_n_n_01_2_11.start (ix2 b k) idx 1 + Cert.ReferenceIdeal.gather_S16384x16384_S131072x200x2_S131072x200_n_01_n_n_01_2_11.batchCoord (ix2 b k) 1 + Cert.ReferenceIdeal.gather_S16384x16384_S131072x200x2_S131072x200_n_01_n_n_01_2_11.offCoord (ix2 b k) 1 = _
    have hm : (1 : Fin 2) ∈ Cert.ReferenceIdeal.gather_S16384x16384_S131072x200x2_S131072x200_n_01_n_n_01_2_11.startIndexMap := by
      show (1 : Fin 2) ∈ [(0 : Fin 2), (1 : Fin 2)]
      decide
    have hc : (1 : Fin 2) ∈ Cert.ReferenceIdeal.gather_S16384x16384_S131072x200x2_S131072x200_n_01_n_n_01_2_11.collapsedSliceDims := by
      show (1 : Fin 2) ∈ [(0 : Fin 2), (1 : Fin 2)]
      decide
    rw [GatherDims.batchCoord_eq_zero _ _ _ List.not_mem_nil,
      GatherDims.offCoord_eq_zero _ _ _ (fun h => ((GatherDims.mem_sKept _ _).mp h).1 hc)]
    simp only [Nat.add_zero]
    unfold GatherDims.start
    rw [dif_pos hm]
    have hsi : Cert.ReferenceIdeal.gather_S16384x16384_S131072x200x2_S131072x200_n_01_n_n_01_2_11.siIdx (ix2 b k) ⟨List.idxOf (1 : Fin 2) Cert.ReferenceIdeal.gather_S16384x16384_S131072x200x2_S131072x200_n_01_n_n_01_2_11.startIndexMap, List.idxOf_lt_length_iff.2 hm⟩
        = ix3 b k (1 : Fin 2) := by
      funext c; refine Fin.ext ?_
      match c with
      | ⟨0, _⟩ => rfl
      | ⟨1, _⟩ => rfl
      | ⟨2, _⟩ => rfl
    rw [hsi]
    rfl

/-- The kernel program's point gather (`S[u, i]`): entry `b` is the operand at the two clamped words. -/
theorem pick2_apply {α : Type} (x : Cert.KernelIdeal.S16384x16384.Idx → α) (idx : IVec Cert.KernelIdeal.S131072x2 32) (b : Fin 131072) :
    Host.gather Cert.KernelIdeal.gather_S16384x16384_S131072x2_S131072_n_01_n_n_01_1_11 x idx (ix1 b)
      = x (ix2 (clamp (idx (ix2 b (0 : Fin 2)))) (clamp (idx (ix2 b (1 : Fin 2))))) := by
  unfold Host.gather
  congr 1
  funext a
  refine Fin.ext ?_
  match a with
  | ⟨0, _⟩ =>
    show Cert.KernelIdeal.gather_S16384x16384_S131072x2_S131072_n_01_n_n_01_1_11.start (ix1 b) idx 0 + Cert.KernelIdeal.gather_S16384x16384_S131072x2_S131072_n_01_n_n_01_1_11.batchCoord (ix1 b) 0 + Cert.KernelIdeal.gather_S16384x16384_S131072x2_S131072_n_01_n_n_01_1_11.offCoord (ix1 b) 0 = _
    have hm : (0 : Fin 2) ∈ Cert.KernelIdeal.gather_S16384x16384_S131072x2_S131072_n_01_n_n_01_1_11.startIndexMap := by
      show (0 : Fin 2) ∈ [(0 : Fin 2), (1 : Fin 2)]
      decide
    have hc : (0 : Fin 2) ∈ Cert.KernelIdeal.gather_S16384x16384_S131072x2_S131072_n_01_n_n_01_1_11.collapsedSliceDims := by
      show (0 : Fin 2) ∈ [(0 : Fin 2), (1 : Fin 2)]
      decide
    rw [GatherDims.batchCoord_eq_zero _ _ _ List.not_mem_nil,
      GatherDims.offCoord_eq_zero _ _ _ (fun h => ((GatherDims.mem_sKept _ _).mp h).1 hc)]
    simp only [Nat.add_zero]
    unfold GatherDims.start
    rw [dif_pos hm]
    have hsi : Cert.KernelIdeal.gather_S16384x16384_S131072x2_S131072_n_01_n_n_01_1_11.siIdx (ix1 b) ⟨List.idxOf (0 : Fin 2) Cert.KernelIdeal.gather_S16384x16384_S131072x2_S131072_n_01_n_n_01_1_11.startIndexMap, List.idxOf_lt_length_iff.2 hm⟩
        = ix2 b (0 : Fin 2) := by
      funext c; refine Fin.ext ?_
      match c with
      | ⟨0, _⟩ => rfl
      | ⟨1, _⟩ => rfl
    rw [hsi]
    rfl
  | ⟨1, _⟩ =>
    show Cert.KernelIdeal.gather_S16384x16384_S131072x2_S131072_n_01_n_n_01_1_11.start (ix1 b) idx 1 + Cert.KernelIdeal.gather_S16384x16384_S131072x2_S131072_n_01_n_n_01_1_11.batchCoord (ix1 b) 1 + Cert.KernelIdeal.gather_S16384x16384_S131072x2_S131072_n_01_n_n_01_1_11.offCoord (ix1 b) 1 = _
    have hm : (1 : Fin 2) ∈ Cert.KernelIdeal.gather_S16384x16384_S131072x2_S131072_n_01_n_n_01_1_11.startIndexMap := by
      show (1 : Fin 2) ∈ [(0 : Fin 2), (1 : Fin 2)]
      decide
    have hc : (1 : Fin 2) ∈ Cert.KernelIdeal.gather_S16384x16384_S131072x2_S131072_n_01_n_n_01_1_11.collapsedSliceDims := by
      show (1 : Fin 2) ∈ [(0 : Fin 2), (1 : Fin 2)]
      decide
    rw [GatherDims.batchCoord_eq_zero _ _ _ List.not_mem_nil,
      GatherDims.offCoord_eq_zero _ _ _ (fun h => ((GatherDims.mem_sKept _ _).mp h).1 hc)]
    simp only [Nat.add_zero]
    unfold GatherDims.start
    rw [dif_pos hm]
    have hsi : Cert.KernelIdeal.gather_S16384x16384_S131072x2_S131072_n_01_n_n_01_1_11.siIdx (ix1 b) ⟨List.idxOf (1 : Fin 2) Cert.KernelIdeal.gather_S16384x16384_S131072x2_S131072_n_01_n_n_01_1_11.startIndexMap, List.idxOf_lt_length_iff.2 hm⟩
        = ix2 b (1 : Fin 2) := by
      funext c; refine Fin.ext ?_
      match c with
      | ⟨0, _⟩ => rfl
      | ⟨1, _⟩ => rfl
    rw [hsi]
    rfl

end Cert.Knn

end
-- ==== Proof.RefValue.lean ====
/-
  The reference's run: its result array ends at the specification's `score` of the argument arrays.

  The result is a sum over 200 terms from a stored zero. Term `k` of query `b` is a product of two gathered
  entries. Each gather reads its operand at start-index words that were first wrapped (a negative word gets the
  extent 16384 added) and are then clamped into the axis, so each word selects row or column `sel w`. The first
  factor is the similarity at `(I, k)`, `I = sel (i b)`; the second is the profile entry at `(U, sel (idx[I, k]))`,
  `U = sel (u b)`, its two start-index words laid side by side along a last axis of extent two.
-/
import proofs.«400773_j62405874811872_1_alg».proof.Proof.Gen.ReferenceIdeal.Run
import proofs.«400773_j62405874811872_1_alg».proof.Proof.Gen.ReferenceIdeal.Read
import proofs.«400773_j62405874811872_1_alg».proof.Proof.Spec
import proofs.«400773_j62405874811872_1_alg».proof.Proof.Gather
import Idealize.ShloMosaic.PureOps.Ideal.Laws

noncomputable section

open scoped BigOperators

open Idealize.ShloMosaic Idealize.ShloMosaic.TcCoe Idealize.SL.Sem

namespace Cert.Knn.Ref

open Idealize.ShloMosaic.ValueIdx

section Read

open Cert.ReferenceIdeal Cert.ReferenceIdeal.Read

/-! ### The index maps of the layout operations, at explicit coordinates -/

theorem idx31 (b : Fin 131072) (k : Fin 200) : idx_main_v31 (ix1 b) k = ix2 b k := by
  funext a; match a with | ⟨0, _⟩ => rfl | ⟨1, _⟩ => rfl

theorem idx5 (b : Fin 131072) : idx_main_v5 (ix2 b (0 : Fin 1)) = ix1 b := by
  funext a; match a with | ⟨0, _⟩ => rfl

theorem idx12 (b : Fin 131072) : idx_main_v12 (ix2 b (0 : Fin 1)) = ix1 b := by
  funext a; match a with | ⟨0, _⟩ => rfl

theorem idx14 (b : Fin 131072) : idx_main_v14 (ix2 b (0 : Fin 1)) = ix1 b := by
  funext a; match a with | ⟨0, _⟩ => rfl

theorem idx25 (b : Fin 131072) (k : Fin 200) : idx_main_v25 (ix2 b k) = ix2 b (0 : Fin 1) := by
  funext a; match a with | ⟨0, _⟩ => rfl | ⟨1, _⟩ => rfl

theorem idx26 (b : Fin 131072) (k : Fin 200) : idx_main_v26 (ix3 b k (0 : Fin 1)) = ix2 b k := by
  funext a; match a with | ⟨0, _⟩ => rfl | ⟨1, _⟩ => rfl

theorem idx27 (b : Fin 131072) (k : Fin 200) : idx_main_v27 (ix3 b k (0 : Fin 1)) = ix2 b k := by
  funext a; match a with | ⟨0, _⟩ => rfl | ⟨1, _⟩ => rfl

/-! ### The wrapped start-index words -/

/-- The item word of query `b`, wrapped (the first copy, feeding the neighbour-list gather). -/
theorem v4_apply (x1 : (⟨S131072, .i32⟩ : BufTy).Contents (Elt Ideal)) (b : Fin 131072) :
    val_main_v4 (F := Ideal) x1 (ix1 b) = wrap (x1 (ix1 b)) := by
  rw [val_main_v4_apply, val_main_v1_apply, val_main_v3_apply, val_main_v0_apply, val_main_v2_apply,
    val_main_c_apply, val_main_c_0_apply]
  rfl

/-- The item word of query `b`, wrapped (the second copy, feeding the similarity gather). -/
theorem v11_apply (x1 : (⟨S131072, .i32⟩ : BufTy).Contents (Elt Ideal)) (b : Fin 131072) :
    val_main_v11 (F := Ideal) x1 (ix1 b) = wrap (x1 (ix1 b)) := by
  rw [val_main_v11_apply, val_main_v8_apply, val_main_v10_apply, val_main_v7_apply, val_main_v9_apply,
    val_main_c_1_apply, val_main_c_2_apply]
  rfl

/-- The user word of query `b`, wrapped. -/
theorem v19_apply (x0 : (⟨S131072, .i32⟩ : BufTy).Contents (Elt Ideal)) (b : Fin 131072) :
    val_main_v19 (F := Ideal) x0 (ix2 b (0 : Fin 1)) = wrap (x0 (ix1 b)) := by
  rw [val_main_v19_apply, val_main_v16_apply, val_main_v18_apply, val_main_v15_apply, val_main_v17_apply,
    val_main_c_3_apply, val_main_c_4_apply, val_main_v14_apply, idx14]
  rfl

/-! ### The two row gathers -/

/-- The neighbour word `(b, k)`: entry `k` of the neighbour list of the item query `b` selects. -/
theorem v6_apply (x1 : (⟨S131072, .i32⟩ : BufTy).Contents (Elt Ideal)) (x2 : (⟨S16384x200, .i32⟩ : BufTy).Contents (Elt Ideal))
    (b : Fin 131072) (k : Fin 200) :
    val_main_v6 (F := Ideal) x1 x2 (ix2 b k) = x2 (ix2 (sel (x1 (ix1 b))) k) := by
  unfold val_main_v6
  refine (rows_apply x2 (val_main_v5 (F := Ideal) x1) b k).trans ?_
  rw [val_main_v5_apply, idx5, v4_apply]
  rfl

/-- The similarity `(b, k)`: entry `k` of the similarity list of the item query `b` selects. -/
theorem v13_apply (x1 : (⟨S131072, .i32⟩ : BufTy).Contents (Elt Ideal)) (x3 : (⟨S16384x200, .f32⟩ : BufTy).Contents (Elt Ideal))
    (b : Fin 131072) (k : Fin 200) :
    val_main_v13 (F := Ideal) x1 x3 (ix2 b k) = x3 (ix2 (sel (x1 (ix1 b))) k) := by
  unfold val_main_v13
  refine (rows_apply x3 (val_main_v12 (F := Ideal) x1) b k).trans ?_
  rw [val_main_v12_apply, idx12, v11_apply]
  rfl

/-- The neighbour word `(b, k)`, wrapped. -/
theorem v24_apply (x1 : (⟨S131072, .i32⟩ : BufTy).Contents (Elt Ideal)) (x2 : (⟨S16384x200, .i32⟩ : BufTy).Contents (Elt Ideal))
    (b : Fin 131072) (k : Fin 200) :
    val_main_v24 (F := Ideal) x1 x2 (ix2 b k) = wrap (x2 (ix2 (sel (x1 (ix1 b))) k)) := by
  rw [val_main_v24_apply, val_main_v21_apply, val_main_v23_apply, val_main_v20_apply, val_main_v22_apply,
    val_main_c_5_apply, val_main_c_6_apply, v6_apply]
  rfl

/-! ### The pair of start-index words of the point gather -/

/-- Coordinate 0 of the pair `(b, k)`: the wrapped user word. -/
theorem v28_apply0 (x0 x1 : (⟨S131072, .i32⟩ : BufTy).Contents (Elt Ideal)) (x2 : (⟨S16384x200, .i32⟩ : BufTy).Contents (Elt Ideal))
    (b : Fin 131072) (k : Fin 200) :
    val_main_v28 (F := Ideal) x0 x1 x2 (ix3 b k (0 : Fin 2)) = wrap (x0 (ix1 b)) := by
  unfold val_main_v28
  refine (concatenate_pair_apply_left (2 : Fin 3) (val_main_v26 (F := Ideal) x0) (val_main_v27 (F := Ideal) x1 x2)
    Gen.concatenates_S131072x200x1_S131072x200x1_S131072x200x2_d2 (ix3 b k (0 : Fin 2)) rfl (ix3 b k (0 : Fin 1)) ?_).trans ?_
  · intro a
    match a with
    | ⟨0, _⟩ => rfl
    | ⟨1, _⟩ => rfl
    | ⟨2, _⟩ => rfl
  · rw [val_main_v26_apply, idx26, val_main_v25_apply, idx25, v19_apply]

/-- Coordinate 1 of the pair `(b, k)`: the wrapped neighbour word. -/
theorem v28_apply1 (x0 x1 : (⟨S131072, .i32⟩ : BufTy).Contents (Elt Ideal)) (x2 : (⟨S16384x200, .i32⟩ : BufTy).Contents (Elt Ideal))
    (b : Fin 131072) (k : Fin 200) :
    val_main_v28 (F := Ideal) x0 x1 x2 (ix3 b k (1 : Fin 2)) = wrap (x2 (ix2 (sel (x1 (ix1 b))) k)) := by
  unfold val_main_v28
  refine (concatenate_pair_apply_right (2 : Fin 3) (val_main_v26 (F := Ideal) x0) (val_main_v27 (F := Ideal) x1 x2)
    Gen.concatenates_S131072x200x1_S131072x200x1_S131072x200x2_d2 (ix3 b k (1 : Fin 2)) rfl rfl (ix3 b k (0 : Fin 1)) ?_ ?_).trans ?_
  · intro a ha
    match a, ha with
    | ⟨0, _⟩, _ => rfl
    | ⟨1, _⟩, _ => rfl
    | ⟨2, _⟩, ha => exact absurd rfl ha
  · rfl
  · rw [val_main_v27_apply, idx27, v24_apply]

/-- The profile entry `(b, k)`: user `U`'s entry at the neighbour. -/
theorem v29_apply (x0 x1 : (⟨S131072, .i32⟩ : BufTy).Contents (Elt Ideal)) (x2 : (⟨S16384x200, .i32⟩ : BufTy).Contents (Elt Ideal))
    (x4 : (⟨S16384x16384, .f32⟩ : BufTy).Contents (Elt Ideal)) (b : Fin 131072) (k : Fin 200) :
    val_main_v29 (F := Ideal) x0 x1 x2 x4 (ix2 b k)
      = x4 (ix2 (sel (x0 (ix1 b))) (sel (x2 (ix2 (sel (x1 (ix1 b))) k)))) := by
  unfold val_main_v29
  refine (pick3_apply x4 (val_main_v28 (F := Ideal) x0 x1 x2) b k).trans ?_
  rw [v28_apply0, v28_apply1]
  rfl

/-- The reference's result array is the specification's score. -/
theorem v31_eq_score (x0 x1 : (⟨S131072, .i32⟩ : BufTy).Contents (Elt Ideal)) (x2 : (⟨S16384x200, .i32⟩ : BufTy).Contents (Elt Ideal))
    (x3 : (⟨S16384x200, .f32⟩ : BufTy).Contents (Elt Ideal)) (x4 : (⟨S16384x16384, .f32⟩ : BufTy).Contents (Elt Ideal)) :
    val_main_v31 (F := Ideal) x0 x1 x2 x3 x4 = score x0 x1 x2 x3 x4 := by
  funext j
  obtain ⟨b, rfl⟩ : ∃ b : Fin 131072, j = ix1 b := ⟨j 0, eq_ix1 j⟩
  rw [val_main_v31_apply]
  unfold score
  refine congrArg₂ (· + ·) Ideal.ofBits_zero_f32 (Finset.sum_congr rfl fun k _ => ?_)
  rw [idx31, val_main_v30_apply, v13_apply, v29_apply]
  rfl

end Read

/-- Every weakly fair execution of the reference ends with its result at `score` and its arguments unchanged. -/
theorem run_score (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v31)
        = score (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono
    (fun _ h c => ⟨(h c).1.trans ((Cert.ReferenceIdeal.Read.val_main_v31_eq (F := Ideal) _ _ _ _ _).trans
      (v31_eq_score _ _ _ _ _)), (h c).2⟩)
    (Cert.ReferenceIdeal.Value.run (F := Ideal) m g)

end Cert.Knn.Ref

end
-- ==== Proof.KTerms.lean ====
/-
  The kernel program's host operations around its one pallas_call, as named terms of the argument arrays:
  the (row, neighbour) index pairs the scatter-add is driven by, the dense similarity matrix it builds,
  and the (user, item) index pairs the final gather reads the product at.
-/
import proofs.«400773_j62405874811872_1_alg».proof.Proof.Gen.KernelIdeal

noncomputable section

namespace Cert.Knn.K

open Idealize.ShloMosaic Cert.KernelIdeal Cert.KernelIdeal.Facts₀

variable {F : FTy → Type} [FloatOps F]

/-- The item ids `0 … 16383` as a column, each wrapped the way jax wraps an index (none is negative). -/
def rowsT : IVec S16384x1 32 :=
  select (cmpi .slt (broadcastInDim S16384x1 ![0] bcast_S16384_S16384x1_0 (iotaInDim S16384 32 0))
      (broadcastInDim S16384x1 ![] bcast_S_S16384x1 (constantI S_ 32 0#32)))
    (addi (broadcastInDim S16384x1 ![0] bcast_S16384_S16384x1_0 (iotaInDim S16384 32 0))
      (broadcastInDim S16384x1 ![] bcast_S_S16384x1 (constantI S_ 32 16384#32)))
    (broadcastInDim S16384x1 ![0] bcast_S16384_S16384x1_0 (iotaInDim S16384 32 0))

/-- The neighbour index words, each wrapped. -/
def colsT (idx : IVec S16384x200 32) : IVec S16384x200 32 :=
  select (cmpi .slt idx (broadcastInDim S16384x200 ![] bcast_S_S16384x200 (constantI S_ 32 0#32)))
    (addi idx (broadcastInDim S16384x200 ![] bcast_S_S16384x200 (constantI S_ 32 16384#32)))
    idx

/-- The scatter's index pairs: at list position `(r, k)` the pair (row `r`, wrapped neighbour word). -/
def pairsT (idx : IVec S16384x200 32) : IVec S16384x200x2 32 :=
  concatenate S16384x200x2 2
    [⟨S16384x200x1, broadcastInDim S16384x200x1 ![0, 1] bcast_S16384x200_S16384x200x1_0_1
        (broadcastInDim S16384x200 ![0, 1] bcast_S16384x1_S16384x200_0_1 rowsT)⟩,
     ⟨S16384x200x1, broadcastInDim S16384x200x1 ![0, 1] bcast_S16384x200_S16384x200x1_0_1 (colsT idx)⟩]
    concatenates_S16384x200x1_S16384x200x1_S16384x200x2_d2

/-- The dense similarity matrix as the program builds it: the similarities scatter-added into zeros. -/
def denseT (idx : IVec S16384x200 32) (sim : FVec F S16384x200 .f32) : FVec F S16384x16384 .f32 :=
  Host.scatterAdd scatter_S16384x16384_S16384x200x2_S16384x200_n_01_01_2
    (broadcastInDim S16384x16384 ![] bcast_S_S16384x16384 (constant S_ .f32 0x00000000#32))
    (pairsT idx) sim

/-- A query word array, each word wrapped. -/
def wrapT (w : IVec S131072 32) : IVec S131072 32 :=
  select (cmpi .slt w (broadcastInDim S131072 ![] bcast_S_S131072 (constantI S_ 32 0#32)))
    (addi w (broadcastInDim S131072 ![] bcast_S_S131072 (constantI S_ 32 16384#32)))
    w

/-- The final gather's index pairs: at query `b` the pair (wrapped user word, wrapped item word). -/
def queryT (u i : IVec S131072 32) : IVec S131072x2 32 :=
  concatenate S131072x2 1
    [⟨S131072x1, broadcastInDim S131072x1 ![0] bcast_S131072_S131072x1_0 (wrapT u)⟩,
     ⟨S131072x1, broadcastInDim S131072x1 ![0] bcast_S131072_S131072x1_0 (wrapT i)⟩]
    concatenates_S131072x1_S131072x1_S131072x2_d1

/-- The program's result from the product matrix `S`: entry (user, item) per query. -/
def pickT {α : Type} (S : S16384x16384.Idx → α) (u i : IVec S131072 32) : S131072.Idx → α :=
  Host.gather gather_S16384x16384_S131072x2_S131072_n_01_n_n_01_1_11 S (queryT u i)

end Cert.Knn.K

end
-- ==== Proof.KPay.lean ====
/-
  The kernel body's arithmetic read back from the run's found pieces: the reset stores a zero block, the
  accumulate step adds to the accumulator block the product of the two operand blocks contracted over their
  shared 2048-wide axis, and at the last column block the accumulator is copied to the output block.

  The product contracts axis 1 of both operands, so at entry (r, s) and contraction position l the first
  operand is read at (r, l) and the second at (s, l): the step's entry (r, s) is the accumulator's entry plus
  the inner product of row r of the first block with row s of the second. Each control case leaves in the
  accumulator (and, at the last column block, in the output block) one whole-block store, whose payload reads
  whole buffers; reading the stores back gives the step applied to the zero block, or to what was held.
-/
import proofs.«400773_j62405874811872_1_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

noncomputable section

open scoped BigOperators

open Idealize.ShloMosaic Idealize.ShloMosaic.TcCoe Idealize.SL.Sem

namespace Cert.Knn.Pay

open Cert.KernelIdeal Cert.KernelIdeal.Gen Idealize.ShloMosaic.ValueIdx

/-! ## The product's operand indices -/

/-- The first operand's row is the entry's row. -/
theorem lhs_axis0 (j : S1024x1024.Idx) (k : dot_S1024x2048_S1024x2048_S1024x1024_1_1_0_0_n_n.contr.Idx) :
    (dot_S1024x2048_S1024x2048_S1024x1024_1_1_0_0_n_n.lhsIdx j k 0).val = (j 0).val := by
  unfold DotDims.lhsIdx
  rw [dif_neg (show ¬(0 : Fin S1024x2048.rank) ∈ dot_S1024x2048_S1024x2048_S1024x1024_1_1_0_0_n_n.lhsBatch by decide),
    dif_pos (show (0 : Fin S1024x2048.rank) ∈ dot_S1024x2048_S1024x2048_S1024x1024_1_1_0_0_n_n.lhsNonContracting by decide)]
  rfl

/-- The first operand's column is the contraction position. -/
theorem lhs_axis1 (j : S1024x1024.Idx) (k : dot_S1024x2048_S1024x2048_S1024x1024_1_1_0_0_n_n.contr.Idx) :
    (dot_S1024x2048_S1024x2048_S1024x1024_1_1_0_0_n_n.lhsIdx j k 1).val = (k ⟨0, by decide⟩).val :=
  DotDims.lhsIdx_val_of_single dot_S1024x2048_S1024x2048_S1024x1024_1_1_0_0_n_n rfl j k

/-- The second operand's row is the entry's column. -/
theorem rhs_axis0 (j : S1024x1024.Idx) (k : dot_S1024x2048_S1024x2048_S1024x1024_1_1_0_0_n_n.contr.Idx) :
    (dot_S1024x2048_S1024x2048_S1024x1024_1_1_0_0_n_n.rhsIdx j k 0).val = (j 1).val := by
  unfold DotDims.rhsIdx
  rw [dif_neg (show ¬(0 : Fin S1024x2048.rank) ∈ dot_S1024x2048_S1024x2048_S1024x1024_1_1_0_0_n_n.rhsBatch by decide),
    dif_pos (show (0 : Fin S1024x2048.rank) ∈ dot_S1024x2048_S1024x2048_S1024x1024_1_1_0_0_n_n.rhsNonContracting by decide)]
  rfl

/-- The second operand's column is the contraction position. -/
theorem rhs_axis1 (j : S1024x1024.Idx) (k : dot_S1024x2048_S1024x2048_S1024x1024_1_1_0_0_n_n.contr.Idx) :
    (dot_S1024x2048_S1024x2048_S1024x1024_1_1_0_0_n_n.rhsIdx j k 1).val = (k ⟨0, by decide⟩).val :=
  DotDims.rhsIdx_val_of_single dot_S1024x2048_S1024x2048_S1024x1024_1_1_0_0_n_n rfl j k

/-- At entry `(r, s)` and contraction position `l` the first operand is read at `(r, l)`. -/
theorem lhs_at (r s : Fin 1024) (l : Fin 2048) :
    dot_S1024x2048_S1024x2048_S1024x1024_1_1_0_0_n_n.lhsIdx (ix2 r s) ((contrEquiv1 dot_S1024x2048_S1024x2048_S1024x1024_1_1_0_0_n_n 2048 rfl rfl).symm l) = ix2 r l := by
  funext a
  refine Fin.ext ?_
  match a with
  | ⟨0, _⟩ => exact lhs_axis0 _ _
  | ⟨1, _⟩ => exact (lhs_axis1 _ _).trans (contrEquiv1_symm_val dot_S1024x2048_S1024x2048_S1024x1024_1_1_0_0_n_n 2048 rfl rfl l)

/-- At entry `(r, s)` and contraction position `l` the second operand is read at `(s, l)`. -/
theorem rhs_at (r s : Fin 1024) (l : Fin 2048) :
    dot_S1024x2048_S1024x2048_S1024x1024_1_1_0_0_n_n.rhsIdx (ix2 r s) ((contrEquiv1 dot_S1024x2048_S1024x2048_S1024x1024_1_1_0_0_n_n 2048 rfl rfl).symm l) = ix2 s l := by
  funext a
  refine Fin.ext ?_
  match a with
  | ⟨0, _⟩ => exact rhs_axis0 _ _
  | ⟨1, _⟩ => exact (rhs_axis1 _ _).trans (contrEquiv1_symm_val dot_S1024x2048_S1024x2048_S1024x1024_1_1_0_0_n_n 2048 rfl rfl l)

/-! ## The payloads at an entry -/

/-- The reset's block is the broadcast zero word (the shape cast is the identity). -/
theorem pay1_eq {F : FTy → Type} [FloatOps F] :
    k0_pay1 (F := F) = broadcast S1024x1024 (Scalar.ofBits .f32 0x00000000#32) := by
  unfold k0_pay1
  exact shapeCast_self _ _

/-- The accumulate step is the accumulator plus the product into a zero block (the shape casts are identities). -/
theorem pay2_eq {F : FTy → Type} [FloatOps F] (xs : Vec F S1024x1024 .f32) (x0 x1 : Vec F S1024x2048 .bf16) :
    k0_pay2 xs x0 x1
      = addf xs (FloatOps.matmul dot_S1024x2048_S1024x2048_S1024x1024_1_1_0_0_n_n none x0 x1 (constant S1024x1024 .f32 0x00000000#32)) := by
  unfold k0_pay2
  simp only [shapeCast_self]

/-- The reset's block is zero everywhere. -/
theorem pay1_apply (y : S1024x1024.Idx) : k0_pay1 (F := Ideal) y = 0 := by
  rw [pay1_eq]
  exact Ideal.ofBits_zero_f32

/-- The accumulate step at entry `(r, s)`: the accumulator's entry plus the sum over the shared axis of the
    products of row `r` of the first block and row `s` of the second. -/
theorem pay2_apply (xs : FVec Ideal S1024x1024 .f32) (x0 x1 : FVec Ideal S1024x2048 .bf16) (r s : Fin 1024) :
    k0_pay2 (F := Ideal) xs x0 x1 (ix2 r s) = xs (ix2 r s) + ∑ l : Fin 2048, x0 (ix2 r l) * x1 (ix2 s l) := by
  rw [pay2_eq, addf_apply, Ideal.matmul_constant_zero_apply,
    ← Equiv.sum_comp (contrEquiv1 dot_S1024x2048_S1024x2048_S1024x1024_1_1_0_0_n_n 2048 rfl rfl).symm]
  refine congrArg (xs (ix2 r s) + ·) (Finset.sum_congr rfl fun l _ => ?_)
  rw [lhs_at r s l, rhs_at r s l]

/-! ## What each control case leaves -/

variable {F : FTy → Type} [FloatOps F]

/-- The whole-block rectangle starts at the origin. -/
theorem origin : (![0, 0] : Fin 2 → Nat) = fun _ => 0 := funext fun a => by fin_cases a <;> rfl

/-- At a first column block the accumulator ends at the step applied to the zero block. -/
theorem sout_A (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i)
    (x0 x1 : Vec F S1024x2048 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) origin, View.readCov_unit_zero (S := S1024x1024) _ origin]
  simp only [View.readAt_eq_ld, h3.read_unread, h4.read_unread,
    View.ld_unit_zero (S := S1024x2048) origin]

/-- At a middle column block the accumulator ends at the step applied to what it held. -/
theorem sout_B (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i)
    (x0 x1 : Vec F S1024x2048 .bf16) (xs0 : Vec F S1024x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero origin]
  simp only [View.readAt_eq_ld, h3.read_unread, h4.read_unread, h6.read_unread,
    View.ld_unit_zero (S := S1024x1024) origin, View.ld_unit_zero (S := S1024x2048) origin]

/-- At the last column block likewise, -/
theorem sout_C (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i)
    (x0 x1 : Vec F S1024x2048 .bf16) (xs0 : Vec F S1024x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero origin]
  simp only [View.readAt_eq_ld, h3.read_unread, h4.read_unread, h6.read_unread,
    View.ld_unit_zero (S := S1024x1024) origin, View.ld_unit_zero (S := S1024x2048) origin]

/-- and the output block is written with the accumulator's new contents. -/
theorem out_C (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i)
    (x0 x1 : Vec F S1024x2048 .bf16) (xs0 : Vec F S1024x1024 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero origin, View.readCov_unit_zero (S := S1024x1024) _ origin]
  simp only [View.readAt_eq_ld, h3.read_unread, h4.read_unread, h6.read_unread,
    View.ld_unit_zero (S := S1024x1024) origin, View.ld_unit_zero (S := S1024x2048) origin]

end Cert.Knn.Pay

end
-- ==== Proof.KRead.lean ====
/-
  The two operand blocks a grid point is handed, read through their windows: at point t = (i·16 + j)·8 + kk
  the first is rows 1024·i … of the profile array, the second rows 1024·j … of the dense similarity array,
  both at columns 2048·kk ….
-/
import proofs.«400773_j62405874811872_1_alg».proof.Proof.Gen.KernelIdeal.Frame
import proofs.«400773_j62405874811872_1_alg».proof.Proof.Spec
import Idealize.ShloMosaic.Lib.Pipeline.Value
import Idealize.ShloMosaic.Lib.ValueIdx
import Idealize.ShloMosaic.Lib.Tactic

noncomputable section

open scoped BigOperators

open Idealize.ShloMosaic Idealize.ShloMosaic.TcCoe Idealize.SL.Sem

namespace Cert.Knn.Read

open Cert.KernelIdeal Cert.KernelIdeal.Gen Idealize.ShloMosaic.ValueIdx

variable (m : (ℓ : Loc nD τ sig) → Buf (Elt Ideal) ℓ)

/-- The first operand array as the region finds it (the profile matrix, narrowed), -/
abbrev Aarr (c : Dev nD) : FVec Ideal S16384x16384 .bf16 := V m c main_v18
/-- and the second (the dense similarity matrix, narrowed). -/
abbrev Barr (c : Dev nD) : FVec Ideal S16384x16384 .bf16 := V m c main_v19

/-- The first operand's block at point `t`, -/
abbrev ablk (c : Dev nD) (t : Fin cfg0.N) : FVec Ideal S1024x2048 .bf16 := iblk m c 0 t
/-- and the second's. -/
abbrev bblk (c : Dev nD) (t : Fin cfg0.N) : FVec Ideal S1024x2048 .bf16 := iblk m c 1 t

/-- Row `1024 · g + r` of a 16384-row array (taken modulo the height, so that it is total in `g`). -/
def rowOf (g : ℕ) (r : Fin 1024) : Fin 16384 := ⟨(1024 * g + r.val) % 16384, Nat.mod_lt _ (by decide)⟩

/-- The first window's block indices, decided once over the grid: at point `t` they are `(t / 128, t % 8)`. -/
theorem idxA : ∀ t : Fin cfg0.N, win0_0.index t (0 : Fin 2) = t.val / 128 ∧ win0_0.index t (1 : Fin 2) = t.val % 8 :=
  (by decide +kernel : ∀ t : Fin grid0.N, _)

/-- The second window's block indices: at point `t` they are `(t / 8 % 16, t % 8)`. -/
theorem idxB : ∀ t : Fin cfg0.N, win0_1.index t (0 : Fin 2) = t.val / 8 % 16 ∧ win0_1.index t (1 : Fin 2) = t.val % 8 :=
  (by decide +kernel : ∀ t : Fin grid0.N, _)

/-- The first block at `(r, l)` is the first array at row `1024·(t/128) + r`, column `2048·(t%8) + l`. -/
theorem ablk_apply (c : Dev nD) (t : Fin cfg0.N) (r : Fin 1024) (l : Fin 2048) :
    ablk m c t (ix2 r l) = Aarr m c (ix2 (rowOf (t.val / 128) r) (col (t.val % 8) l)) := by
  -- a block's coordinate is (block index) × (block size) + (coordinate inside the block); with t < 2048 the
  -- sums stay below 16384, so the reductions modulo 16384 in `rowOf` and `col` are the identity
  obtain ⟨e0, e1⟩ := idxA t
  have hr : r.val < 1024 := r.isLt
  have hl : l.val < 2048 := l.isLt
  have ht : t.val < 2048 := lt_of_lt_of_eq t.isLt N_0
  show iblk m c 0 t (ix2 r l) = _
  unfold iblk
  rw [View.read_apply]
  show V m c main_v18 (((cfg0.win 0).blk t).view.emb (ix2 r l))
    = V m c main_v18 (ix2 (rowOf (t.val / 128) r) (col (t.val % 8) l))
  refine congrArg (V m c main_v18) ?_
  funext a
  apply Fin.ext
  match a with
  | ⟨0, _⟩ =>
    show win0_0.index t (0 : Fin 2) * 1024 + 1 * r.val = (1024 * (t.val / 128) + r.val) % 16384
    rw [e0]; omega
  | ⟨1, _⟩ =>
    show win0_0.index t (1 : Fin 2) * 2048 + 1 * l.val = (2048 * (t.val % 8) + l.val) % 16384
    rw [e1]; omega

/-- The second block at `(s, l)` is the second array at row `1024·(t/8 % 16) + s`, column `2048·(t%8) + l`. -/
theorem bblk_apply (c : Dev nD) (t : Fin cfg0.N) (s : Fin 1024) (l : Fin 2048) :
    bblk m c t (ix2 s l) = Barr m c (ix2 (rowOf (t.val / 8 % 16) s) (col (t.val % 8) l)) := by
  obtain ⟨e0, e1⟩ := idxB t
  have hs : s.val < 1024 := s.isLt
  have hl : l.val < 2048 := l.isLt
  have ht : t.val < 2048 := lt_of_lt_of_eq t.isLt N_0
  show iblk m c 1 t (ix2 s l) = _
  unfold iblk
  rw [View.read_apply]
  show V m c main_v19 (((cfg0.win 1).blk t).view.emb (ix2 s l))
    = V m c main_v19 (ix2 (rowOf (t.val / 8 % 16) s) (col (t.val % 8) l))
  refine congrArg (V m c main_v19) ?_
  funext a
  apply Fin.ext
  match a with
  | ⟨0, _⟩ =>
    show win0_1.index t (0 : Fin 2) * 1024 + 1 * s.val = (1024 * (t.val / 8 % 16) + s.val) % 16384
    rw [e0]; omega
  | ⟨1, _⟩ =>
    show win0_1.index t (1 : Fin 2) * 2048 + 1 * l.val = (2048 * (t.val % 8) + l.val) % 16384
    rw [e1]; omega

end Cert.Knn.Read

end
-- ==== Proof.KBlocks.lean ====
/-
  The pallas_call's result array. The grid is 16 × 16 × 8, row-major: point t = (i·16 + j)·8 + kk works on
  rows 1024·i … of the first operand, rows 1024·j … of the second and columns 2048·kk … of both. The
  accumulator block is zeroed at kk = 0, gains column block kk's products at every point, and is written to
  block (i, j) of the result at kk = 7. So after point t the accumulator holds, at (r, s), the partial sum
  `accum A B (1024·i + r) (1024·j + s) kk` (induction over the points, by the three cases of the body), the
  block written back at kk = 7 is the full `gram A B` there, and the 256 written blocks tile the result.
-/
import proofs.«400773_j62405874811872_1_alg».proof.Proof.Gen.KernelIdeal.Frame
import proofs.«400773_j62405874811872_1_alg».proof.Proof.Spec
import proofs.«400773_j62405874811872_1_alg».proof.Proof.KPay
import proofs.«400773_j62405874811872_1_alg».proof.Proof.KRead
import Idealize.ShloMosaic.Lib.Pipeline.Value
import Idealize.ShloMosaic.Lib.Tactic
import Idealize.ShloMosaic.PureOps.Ideal.Laws

noncomputable section

open scoped BigOperators

open Idealize.ShloMosaic Idealize.ShloMosaic.TcCoe Idealize.SL.Sem
open Idealize.ShloMosaic.Pipeline (Dat)

namespace Cert.Knn.Blocks

open Cert.KernelIdeal Cert.KernelIdeal.Gen Idealize.ShloMosaic.ValueIdx Cert.Knn.Read

variable (m : (ℓ : Loc nD τ sig) → Buf (Elt Ideal) ℓ)

/-- The accumulator block after point `n`: at `(r, s)` the partial sum over column blocks `0 … n % 8` of the
    products of row `1024·(n/128) + r` of the first array and row `1024·(n/8 % 16) + s` of the second. -/
def accBlk (c : Dev nD) (n : ℕ) : FVec Ideal S1024x1024 .f32 := fun y =>
  accum (Aarr m c) (Barr m c) (rowOf (n / 128) ⟨(y 0).val, idx2_lt0 y⟩) (rowOf (n / 8 % 16) ⟨(y 1).val, idx2_lt1 y⟩) (n % 8)

theorem accBlk_apply (c : Dev nD) (n : ℕ) (r s : Fin 1024) :
    accBlk m c n (ix2 r s) = accum (Aarr m c) (Barr m c) (rowOf (n / 128) r) (rowOf (n / 8 % 16) s) (n % 8) := rfl

/-- One accumulate step at point `t`, entry `(r, s)`: what the accumulator held plus column block `t % 8`'s share. -/
theorem step_apply (c : Dev nD) (t : Fin cfg0.N) (xs : FVec Ideal S1024x1024 .f32) (r s : Fin 1024) :
    k0_pay2 (F := Ideal) xs (ablk m c t) (bblk m c t) (ix2 r s)
      = xs (ix2 r s) + part (Aarr m c) (Barr m c) (rowOf (t.val / 128) r) (rowOf (t.val / 8 % 16) s) (t.val % 8) := by
  rw [Pay.pay2_apply]
  unfold part
  refine congrArg (xs (ix2 r s) + ·) (Finset.sum_congr rfl fun l _ => ?_)
  rw [ablk_apply, bblk_apply]

/-- At a first column block the step starts from the zero block: the partial sum is `0 + ` the first share. -/
theorem step_first (c : Dev nD) (t : Fin cfg0.N) (h0 : t.val % 8 = 0) :
    k0_pay2 (F := Ideal) (k0_pay1 (F := Ideal)) (iblk m c 0 t) (iblk m c 1 t) = accBlk m c t.val := by
  funext y
  obtain ⟨r, s, rfl⟩ : ∃ (r : Fin 1024) (s : Fin 1024), y = ix2 r s := ⟨y 0, y 1, eq_ix2 y⟩
  refine (step_apply m c t (k0_pay1 (F := Ideal)) r s).trans ?_
  rw [Pay.pay1_apply, accBlk_apply, h0]
  rfl

/-- At a later column block the step continues the partial sum of the point before (same rows, next column block). -/
theorem step_next (c : Dev nD) (t : Fin cfg0.N) (h0 : ¬t.val % 8 = 0) :
    k0_pay2 (F := Ideal) (accBlk m c (t.val - 1)) (iblk m c 0 t) (iblk m c 1 t) = accBlk m c t.val := by
  funext y
  obtain ⟨r, s, rfl⟩ : ∃ (r : Fin 1024) (s : Fin 1024), y = ix2 r s := ⟨y 0, y 1, eq_ix2 y⟩
  refine (step_apply m c t (accBlk m c (t.val - 1)) r s).trans ?_
  have e1 : (t.val - 1) / 128 = t.val / 128 := by omega
  have e2 : (t.val - 1) / 8 % 16 = t.val / 8 % 16 := by omega
  have e3 : t.val % 8 = (t.val - 1) % 8 + 1 := by omega
  rw [accBlk_apply, accBlk_apply, e1, e2, e3]
  rfl

/-- At a first column block the accumulator ends at its first partial sum. -/
theorem scratch_first (c : Dev nD) (t : Fin cfg0.N) (h0 : t.val % 8 = 0) :
    (outsAt0 m c t.val t.isLt).2 = accBlk m c t.val := by
  have h1 : ¬t.val % 8 = 7 := by omega
  rw [outsAt0_A m c t h0 h1]
  dsimp only
  rw [Pay.sout_A (F := Ideal) c (grid0.coords t) (ms0_0 t) (hs0_0 t) (ms0_1 t) (hs0_1 t) (ms0_2 t) (hs0_2 t) scM0_0 (Memref.isWhole_whole _) ((hcond0_0 t).mpr h0) (fun hh => h1 ((hcond0_1 t).mp hh)) (iblk m c 0 t) (iblk m c 1 t)]
  exact step_first m c t h0

/-- At a later column block the accumulator continues from what the point before left. -/
theorem scratch_succ (c : Dev nD) (t : Fin cfg0.N) (h0 : ¬t.val % 8 = 0)
    (ih : (outsAt0 m c (t.val - 1) (Nat.lt_of_le_of_lt (Nat.sub_le _ _) t.isLt)).2 = accBlk m c (t.val - 1)) :
    (outsAt0 m c t.val t.isLt).2 = accBlk m c t.val := by
  by_cases h1 : t.val % 8 = 7
  · rw [outsAt0_C m c t h0 h1]
    dsimp only
    rw [Pay.sout_C (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2]
    rw [ih]
    exact step_next m c t h0
  · rw [outsAt0_B m c t h0 h1]
    dsimp only
    rw [Pay.sout_B (F := Ideal) c (grid0.coords t) (ms0_0 t) (hs0_0 t) (ms0_1 t) (hs0_1 t) (ms0_2 t) (hs0_2 t) scM0_0 (Memref.isWhole_whole _) (fun hh => h0 ((hcond0_0 t).mp hh)) (fun hh => h1 ((hcond0_1 t).mp hh)) (iblk m c 0 t) (iblk m c 1 t) (outsAt0 m c (t.val - 1) (Nat.lt_of_le_of_lt (Nat.sub_le _ _) t.isLt)).2]
    rw [ih]
    exact step_next m c t h0

/-- THE ACCUMULATION: after every point the accumulator holds its partial sum (induction over the points). -/
theorem scratch_eq (c : Dev nD) : ∀ (n : ℕ) (h : n < cfg0.N), (outsAt0 m c n h).2 = accBlk m c n
  | 0, h => scratch_first m c ⟨0, h⟩ rfl
  | n + 1, h => by
    by_cases h0 : (n + 1) % 8 = 0
    · exact scratch_first m c ⟨n + 1, h⟩ h0
    · exact scratch_succ m c ⟨n + 1, h⟩ h0 (scratch_eq c n (Nat.lt_of_succ_lt h))

/-- At a last column block the output block is written with the accumulator's final partial sum. -/
theorem out_eq (c : Dev nD) (t : Fin cfg0.N) (h7 : t.val % 8 = 7) : (outsAt0 m c t.val t.isLt).1 = accBlk m c t.val := by
  have h0 : ¬t.val % 8 = 0 := by omega
  rw [outsAt0_C m c t h0 h7]
  dsimp only
  rw [Pay.out_C (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h7) (iblk m c 0 t) (iblk m c 1 t) (outsAt0 m c (t.val - 1) (Nat.lt_of_le_of_lt (Nat.sub_le _ _) t.isLt)).2]
  rw [scratch_eq m c (t.val - 1) (Nat.lt_of_le_of_lt (Nat.sub_le _ _) t.isLt)]
  exact step_next m c t h0

/-- The result window's block indices, decided once over the grid: at point `t` they are `(t / 128, t / 8 % 16)`. -/
theorem idxC : ∀ t : Fin cfg0.N, win0_2.index t (0 : Fin 2) = t.val / 128 ∧ win0_2.index t (1 : Fin 2) = t.val / 8 % 16 :=
  (by decide +kernel : ∀ t : Fin grid0.N, _)

/-- WHAT A LAST-COLUMN-BLOCK POINT WRITES BACK is its block of `gram` of the two operand arrays. -/
theorem flushed_eq (c : Dev nD) (t : Fin cfg0.N) (hf : (cfg0.win 2).flush t = true) :
    (dats m 0 c).flushed 2 t = ((cfg0.win 2).blk t).view.read (Elt Ideal) (gram (Aarr m c) (Barr m c)) := by
  have h7 : t.val % 8 = 7 := (flush0_2 t).mp hf
  obtain ⟨e0, e1⟩ := idxC t
  have ht : t.val < 2048 := lt_of_lt_of_eq t.isLt N_0
  show (cfg0.win 2).cut (grid0.coords t) ((dats m 0 c).after 2 t) = _
  rw [after0_2, out_eq m c t h7]
  funext y
  obtain ⟨r, s, rfl⟩ : ∃ (r : Fin 1024) (s : Fin 1024), y = ix2 r s := ⟨y 0, y 1, eq_ix2 y⟩
  have hr : r.val < 1024 := r.isLt
  have hs : s.val < 1024 := s.isLt
  show accBlk m c t.val (ix2 r s) = gram (Aarr m c) (Barr m c) (((cfg0.win 2).blk t).view.emb (ix2 r s))
  rw [accBlk_apply, h7]
  unfold gram
  have p0 : rowOf (t.val / 128) r = ⟨((((cfg0.win 2).blk t).view.emb (ix2 r s)) 0).val, idx2_lt0 _⟩ := by
    apply Fin.ext
    show (1024 * (t.val / 128) + r.val) % 16384 = win0_2.index t (0 : Fin 2) * 1024 + 1 * r.val
    rw [e0]; omega
  have p1 : rowOf (t.val / 8 % 16) s = ⟨((((cfg0.win 2).blk t).view.emb (ix2 r s)) 1).val, idx2_lt1 _⟩ := by
    apply Fin.ext
    show (1024 * (t.val / 8 % 16) + s.val) % 16384 = win0_2.index t (1 : Fin 2) * 1024 + 1 * s.val
    rw [e1]; omega
  rw [p0, p1]

/-- An index of the result is in point `t`'s block iff each coordinate is in the block's range on its axis. -/
theorem mem_blk (t : Fin cfg0.N) (i : S16384x16384.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v20).slice (win0_2.rect t)).set ↔ _
  rw [View.set_slice_whole, Rect.mem_set_unit]
  exact Iff.rfl

/-- Every entry of the result lies in the block of the last-column-block point of its (row block, column block). -/
theorem cover (i : S16384x16384.Idx) :
    ∃ t : Fin cfg0.N, (cfg0.win 2).flush t = true ∧ i ∈ ((cfg0.win 2).blk t).view.set := by
  have hi0 : (i 0).val < 16384 := idx2_lt0 i
  have hi1 : (i 1).val < 16384 := idx2_lt1 i
  have hN : cfg0.N = 2048 := N_0
  refine ⟨⟨((i 0).val / 1024 * 16 + (i 1).val / 1024) * 8 + 7, by rw [hN]; omega⟩, ?_, ?_⟩
  · exact (flush0_2 _).mpr (by show (((i 0).val / 1024 * 16 + (i 1).val / 1024) * 8 + 7) % 8 = 7; omega)
  · rw [mem_blk]
    obtain ⟨e0, e1⟩ := idxC ⟨((i 0).val / 1024 * 16 + (i 1).val / 1024) * 8 + 7, by rw [hN]; omega⟩
    intro a
    match a with
    | ⟨0, _⟩ =>
      show win0_2.index _ (0 : Fin 2) * 1024 ≤ (i 0).val ∧ (i 0).val < win0_2.index _ (0 : Fin 2) * 1024 + 1024
      rw [e0]
      show (((i 0).val / 1024 * 16 + (i 1).val / 1024) * 8 + 7) / 128 * 1024 ≤ (i 0).val ∧ (i 0).val < (((i 0).val / 1024 * 16 + (i 1).val / 1024) * 8 + 7) / 128 * 1024 + 1024
      omega
    | ⟨1, _⟩ =>
      show win0_2.index _ (1 : Fin 2) * 1024 ≤ (i 1).val ∧ (i 1).val < win0_2.index _ (1 : Fin 2) * 1024 + 1024
      rw [e1]
      show (((i 0).val / 1024 * 16 + (i 1).val / 1024) * 8 + 7) / 8 % 16 * 1024 ≤ (i 1).val ∧ (i 1).val < (((i 0).val / 1024 * 16 + (i 1).val / 1024) * 8 + 7) / 8 % 16 * 1024 + 1024
      omega

/-- The product array after the run is `gram` of the two operand arrays as the region finds them. -/
theorem final_S (c : Dev nD) :
    (dats (F := Ideal) m 0 c).arrAt 2 cfg0.N = gram (V m c main_v18) (V m c main_v19) :=
  (dats m 0 c).arrAt_eq_of_cover 2 (gram (Aarr m c) (Barr m c)) (flushed_eq m c) (cover)

end Cert.Knn.Blocks

end
-- ==== Proof.Scatter.lean ====
/-
  The scatter-add read at an entry: with every neighbour index word in range, the matrix the program
  builds is the dense similarity matrix of the specification.

  The scatter's index pair at list position (r, k) is (wrapped word of r, wrapped neighbour word). A row
  number below 16384 and an in-range neighbour word are not negative, so wrapping leaves both alone. Both
  operand axes are inserted window axes, so the window coordinate is zero and update (r, k) lands at
  (r, value of the neighbour word), which is inside the matrix. Under the range hypothesis that value is
  the column `sel` picks. Hence the updates landing at (q, j) are exactly the entries k of row q's list
  with `sel (idx (q, k)) = j`, and the two sums agree term by term along k ↦ (q, k).
-/
import proofs.«400773_j62405874811872_1_alg».proof.Proof.KTerms
import proofs.«400773_j62405874811872_1_alg».proof.Proof.Spec
import Idealize.ShloMosaic.PureOps.Ideal.Laws
import Idealize.ShloMosaic.Lib.Pipeline.Value
import Idealize.ShloMosaic.Lib.IdealHost

noncomputable section

open scoped BigOperators

namespace Cert.Knn

open Idealize.ShloMosaic Idealize.ShloMosaic.ValueIdx

namespace Scatter

/-! ### Index words in range -/

/-- A word that is not negative, compared signed against zero, is not below it. -/
theorem slt_zero_of_nonneg {w : BitVec 32} (hw : 0 ≤ w.toInt) : IntOp.cmpi .slt w 0#32 = 0#1 := by
  unfold IntOp.cmpi
  have : w.slt 0#32 = false := by
    rw [BitVec.slt_eq_decide]
    simp
    exact hw
  simp only [this]
  rfl

/-- Wrapping leaves an in-range word alone. -/
theorem wrap_of_inRange {w : BitVec 32} (hw : InRange w) : wrap w = w := by
  unfold wrap
  rw [slt_zero_of_nonneg hw.1, select_zero]

/-- An in-range word selects the column that is its own value. -/
theorem sel_val_of_inRange {w : BitVec 32} (hw : InRange w) : (sel w).val = w.toInt.toNat := by
  unfold sel
  rw [wrap_of_inRange hw]
  unfold clamp
  show min w.toInt.toNat 16383 = _
  have := hw.1; have := hw.2
  omega

/-- The word of a row number below 16384 is in range. -/
theorem inRange_ofNat (r : Fin 16384) : InRange (BitVec.ofNat 32 r.val) := by
  have hr := r.isLt
  have : (BitVec.ofNat 32 r.val).toInt = r.val := by
    rw [BitVec.toInt_eq_toNat_cond, BitVec.toNat_ofNat]
    have h1 : r.val % 2 ^ 32 = r.val := Nat.mod_eq_of_lt (by omega)
    rw [h1, if_pos (by omega)]
  unfold InRange
  omega

/-! ### The index pairs read at a list position -/

/-- The word of a row number below 16384 reads, signed, as that number. -/
theorem toInt_ofNat_row (r : Fin 16384) : (BitVec.ofNat 32 r.val).toInt = r.val := by
  have hr := r.isLt
  rw [BitVec.toInt_eq_toNat_cond, BitVec.toNat_ofNat]
  have h1 : r.val % 2 ^ 32 = r.val := Nat.mod_eq_of_lt (by omega)
  rw [h1, if_pos (by omega)]

/-- The item-id column read at row `r`: the wrapped word of `r`. -/
theorem rowsT_apply (r : Fin 16384) : K.rowsT (ix2 r (0 : Fin 1)) = wrap (BitVec.ofNat 32 r.val) := by
  unfold K.rowsT wrap
  rfl

/-- The neighbour words read at a list position: the wrapped word. -/
theorem colsT_apply (idx : IVec SL 32) (y : SL.Idx) : K.colsT idx y = wrap (idx y) := by
  unfold K.colsT wrap
  rfl

/-- The scatter's index pair at list position `(r, k)`, component 0: the wrapped word of the row `r`. -/
theorem pairsT_row (idx : IVec SL 32) (r : Fin 16384) (k : Fin 200) :
    K.pairsT idx (ix3 r k (0 : Fin 2)) = wrap (BitVec.ofNat 32 r.val) := by
  unfold K.pairsT
  refine (concatenate_pair_apply_left (t := ⟨3, ![16384, 200, 2]⟩) (s₁ := ⟨3, ![16384, 200, 1]⟩) (s₂ := ⟨3, ![16384, 200, 1]⟩) (2 : Fin 3) _ _ _ (ix3 r k (0 : Fin 2)) rfl (ix3 r k (0 : Fin 1)) ?_).trans ?_
  · intro b
    match b with
    | ⟨0, _⟩ => rfl
    | ⟨1, _⟩ => rfl
    | ⟨2, _⟩ => rfl
  · exact rowsT_apply r

/-- Component 1: the wrapped neighbour word. -/
theorem pairsT_col (idx : IVec SL 32) (r : Fin 16384) (k : Fin 200) :
    K.pairsT idx (ix3 r k (1 : Fin 2)) = wrap (idx (ix2 r k)) := by
  unfold K.pairsT
  refine (concatenate_pair_apply_right (t := ⟨3, ![16384, 200, 2]⟩) (s₁ := ⟨3, ![16384, 200, 1]⟩) (s₂ := ⟨3, ![16384, 200, 1]⟩) (2 : Fin 3) _ _ _ (ix3 r k (1 : Fin 2)) rfl rfl (ix3 r k (0 : Fin 1)) ?_ ?_).trans ?_
  · intro b hb
    match b, hb with
    | ⟨0, _⟩, _ => rfl
    | ⟨1, _⟩, _ => rfl
    | ⟨2, _⟩, hb => exact absurd rfl hb
  · rfl
  · refine (broadcastInDim_apply (s := ⟨2, ![16384, 200]⟩) (t := ⟨3, ![16384, 200, 1]⟩) _ _ _ (ix3 r k (0 : Fin 1)) (ix2 r k) ?_).trans (colsT_apply idx (ix2 r k))
    intro a
    match a with
    | ⟨0, _⟩ => rfl
    | ⟨1, _⟩ => rfl

/-! ### The scatter's dimension numbers at a list position -/

/-- The scatter's dimension numbers: no window axes, both operand axes inserted and scattered, the index
    vector on the last axis of the index pairs. -/
abbrev sd : ScatterDims SM ⟨3, ![16384, 200, 2]⟩ SL :=
  Cert.KernelIdeal.scatter_S16384x16384_S16384x200x2_S16384x200_n_01_01_2

/-- No operand axis is kept: both are inserted window axes. -/
theorem sd_not_mem_sKept (a : Fin 2) : a ∉ sd.sKept := by
  intro hm
  have h2 := (List.mem_filter.mp hm).2
  match a with
  | ⟨0, _⟩ => exact (of_decide_eq_true h2) List.mem_cons_self
  | ⟨1, _⟩ => exact (of_decide_eq_true h2) (List.mem_cons_of_mem _ List.mem_cons_self)

/-- Both operand axes are inserted window axes: the window coordinate is zero. -/
theorem sd_window (j : SL.Idx) (a : Fin 2) : sd.window j a = 0 := by
  unfold ScatterDims.window
  rw [dif_neg (sd_not_mem_sKept a)]

/-- Operand axes 0 and 1 are both named by the scatter's axis map. -/
theorem sd_mem0 : (0 : Fin 2) ∈ sd.scatterDimsToOperandDims := List.mem_cons_self
theorem sd_mem1 : (1 : Fin 2) ∈ sd.scatterDimsToOperandDims := List.mem_cons_of_mem _ List.mem_cons_self

/-- Component 0 of update `(r, k)`'s start index is read at `(r, k, 0)`. -/
theorem sd_siIdx0 (r : Fin 16384) (k : Fin 200) :
    sd.siIdx (ix2 r k) ⟨List.idxOf (0 : Fin 2) sd.scatterDimsToOperandDims, List.idxOf_lt_length_iff.2 sd_mem0⟩
      = ix3 r k (0 : Fin 2) := by
  funext b; refine Fin.ext ?_
  match b with
  | ⟨0, _⟩ => rfl
  | ⟨1, _⟩ => rfl
  | ⟨2, _⟩ => rfl

/-- Component 1 of update `(r, k)`'s start index is read at `(r, k, 1)`. -/
theorem sd_siIdx1 (r : Fin 16384) (k : Fin 200) :
    sd.siIdx (ix2 r k) ⟨List.idxOf (1 : Fin 2) sd.scatterDimsToOperandDims, List.idxOf_lt_length_iff.2 sd_mem1⟩
      = ix3 r k (1 : Fin 2) := by
  funext b; refine Fin.ext ?_
  match b with
  | ⟨0, _⟩ => rfl
  | ⟨1, _⟩ => rfl
  | ⟨2, _⟩ => rfl

/-- The start on operand axis 0 for update index `(r, k)`: the row `r`. -/
theorem sd_start0 (idx : IVec SL 32) (r : Fin 16384) (k : Fin 200) :
    sd.start (ix2 r k) (K.pairsT idx) (0 : Fin 2) = (r.val : Int) := by
  unfold ScatterDims.start
  rw [dif_pos sd_mem0, sd_siIdx0, pairsT_row, wrap_of_inRange (inRange_ofNat r), toInt_ofNat_row]

/-- The start on operand axis 1: the wrapped neighbour word, read signed. -/
theorem sd_start1 (idx : IVec SL 32) (r : Fin 16384) (k : Fin 200) :
    sd.start (ix2 r k) (K.pairsT idx) (1 : Fin 2) = (wrap (idx (ix2 r k))).toInt := by
  unfold ScatterDims.start
  rw [dif_pos sd_mem1, sd_siIdx1, pairsT_col]

/-- The scatter's landing place of update `(r, k)`, for an in-range neighbour word: row `r`, column the word's value. -/
theorem sd_resultIdx?_eq_some_iff (idx : IVec SL 32) (h : ∀ y, InRange (idx y)) (r : Fin 16384) (k : Fin 200)
    (p : SM.Idx) :
    sd.resultIdx? (ix2 r k) (K.pairsT idx) = some p ↔
      r.val = (p 0).val ∧ (idx (ix2 r k)).toInt.toNat = (p 1).val := by
  have hin := h (ix2 r k)
  have hs0 := sd_start0 idx r k
  have hs1 := sd_start1 idx r k
  rw [wrap_of_inRange hin] at hs1
  have hw0 := sd_window (ix2 r k) (0 : Fin 2)
  have hw1 := sd_window (ix2 r k) (1 : Fin 2)
  have hr := r.isLt
  have hall : ∀ a : Fin 2, 0 ≤ sd.start (ix2 r k) (K.pairsT idx) a + sd.window (ix2 r k) a ∧
      sd.start (ix2 r k) (K.pairsT idx) a + sd.window (ix2 r k) a < SM.size a := by
    intro a
    match a with
    | ⟨0, _⟩ =>
      show 0 ≤ sd.start (ix2 r k) (K.pairsT idx) (0 : Fin 2) + sd.window (ix2 r k) (0 : Fin 2) ∧
        sd.start (ix2 r k) (K.pairsT idx) (0 : Fin 2) + sd.window (ix2 r k) (0 : Fin 2) < (16384 : Nat)
      rw [hs0, hw0]; omega
    | ⟨1, _⟩ =>
      show 0 ≤ sd.start (ix2 r k) (K.pairsT idx) (1 : Fin 2) + sd.window (ix2 r k) (1 : Fin 2) ∧
        sd.start (ix2 r k) (K.pairsT idx) (1 : Fin 2) + sd.window (ix2 r k) (1 : Fin 2) < (16384 : Nat)
      rw [hs1, hw1]; have := hin.1; have := hin.2; omega
  unfold ScatterDims.resultIdx?
  rw [dif_pos hall]
  constructor
  · intro he
    have he' := Option.some.inj he
    have e0 := congrArg Fin.val (congrFun he' (0 : Fin 2))
    have e1 := congrArg Fin.val (congrFun he' (1 : Fin 2))
    simp only [hs0, hs1, hw0, hw1] at e0 e1
    constructor
    · omega
    · omega
  · rintro ⟨e0, e1⟩
    refine congrArg some (funext fun a => Fin.ext ?_)
    match a with
    | ⟨0, _⟩ =>
      show (sd.start (ix2 r k) (K.pairsT idx) (0 : Fin 2) + sd.window (ix2 r k) (0 : Fin 2)).toNat = (p 0).val
      rw [hs0, hw0]; omega
    | ⟨1, _⟩ =>
      show (sd.start (ix2 r k) (K.pairsT idx) (1 : Fin 2) + sd.window (ix2 r k) (1 : Fin 2)).toNat = (p 1).val
      rw [hs1, hw1]; omega

end Scatter

open Scatter

/-- The program's scatter-add into zeros is `dense`, when every neighbour index word is in range. -/
theorem denseT_eq (idx : IVec SL 32) (sim : SL.Idx → EReal) (h : ∀ y, InRange (idx y)) :
    K.denseT (F := Ideal) idx sim = dense idx sim := by
  funext p
  unfold K.denseT Host.scatterAdd
  rw [Ideal.hostScatterAdd_def]
  unfold Ideal.hostScatterAdd
  rw [broadcastInDim_scalar_apply, constant_apply, Ideal.ofBits_zero_f32]
  unfold dense denseAt
  refine congrArg (fun t : EReal => 0 + t) ?_
  symm
  refine Finset.sum_bij (fun k _ => ix2 (⟨(p 0).val, idx2_lt0 p⟩ : Fin 16384) k) ?_ ?_ ?_ ?_
  · -- a list entry of row q whose neighbour is j lands at (q, j)
    intro k hk
    rw [Finset.mem_filter] at hk ⊢
    refine ⟨Finset.mem_univ _, ?_⟩
    refine (sd_resultIdx?_eq_some_iff idx h _ k p).mpr ⟨rfl, ?_⟩
    have hv := congrArg Fin.val hk.2
    rw [sel_val_of_inRange (h _)] at hv
    exact hv
  · intro k₁ _ k₂ _ he
    exact congrFun he (1 : Fin 2)
  · -- an update landing at (q, j) is a list entry of row q whose neighbour is j
    intro y hy
    obtain ⟨r, k, rfl⟩ : ∃ (r : Fin 16384) (k : Fin 200), y = ix2 r k := ⟨y 0, y 1, eq_ix2 y⟩
    obtain ⟨e0, e1⟩ := (sd_resultIdx?_eq_some_iff idx h r k p).mp (Finset.mem_filter.mp hy).2
    have hq : (⟨(p 0).val, idx2_lt0 p⟩ : Fin 16384) = r := Fin.ext e0.symm
    refine ⟨k, Finset.mem_filter.mpr ⟨Finset.mem_univ _, Fin.ext ?_⟩, ?_⟩
    · rw [sel_val_of_inRange (h _), hq]
      exact e1
    · show ix2 (⟨(p 0).val, idx2_lt0 p⟩ : Fin 16384) k = ix2 r k
      rw [hq]
  · intro k _
    rfl

end Cert.Knn

end
-- ==== Proof.KHost.lean ====
/-
  The kernel program's run. Before the pallas_call the host narrows the profile matrix and builds the dense
  similarity matrix by a scatter-add (then narrows it too; a change of float format is the identity on the
  extended reals); after it the host picks, for each query, the entry of the product at the wrapped, clamped
  (user, item) words. With the product array `gram` of the two operands (KBlocks) and the scatter-add the
  specification's `dense` (Scatter), the result array is `kscore`.
-/
import proofs.«400773_j62405874811872_1_alg».proof.Proof.Gen.KernelIdeal.Frame
import proofs.«400773_j62405874811872_1_alg».proof.Proof.Spec
import proofs.«400773_j62405874811872_1_alg».proof.Proof.KTerms
import proofs.«400773_j62405874811872_1_alg».proof.Proof.KBlocks
import proofs.«400773_j62405874811872_1_alg».proof.Proof.Scatter
import proofs.«400773_j62405874811872_1_alg».proof.Proof.Gather
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem

namespace Cert.Knn.Ker

open Cert.KernelIdeal Cert.KernelIdeal.Gen Idealize.ShloMosaic.ValueIdx

variable (m : (ℓ : Loc nD τ sig) → Buf (Elt Ideal) ℓ) (ρ : Dev nD → PrngReg)

/-- The host's narrowing of a 16384 × 16384 matrix to the 16-bit format, -/
def narrowT (x : FVec Ideal S16384x16384 .f32) : FVec Ideal S16384x16384 .bf16 :=
  truncf .bf16 x Cert.KernelIdeal.Gen.bitsLt_bf16_f32

/-- which on the extended reals changes nothing. -/
theorem narrowT_eq (x : FVec Ideal S16384x16384 .f32) : narrowT x = x := rfl

set_option maxHeartbeats 4000000 in
/-- The first operand array as the region finds it: the profile matrix, narrowed. -/
theorem V_v18 (c : Dev nD) : V m c main_v18 = narrowT (m ((c.tc : Thread nD τ).loc main_arg4)) := by
  show StableHlo.after hostOps0 (fun b => m (c, b)) (Proc.devRef .tc main_v18) = _
  after_results
  rfl

set_option maxHeartbeats 4000000 in
/-- The second operand array as the region finds it: the scatter-added similarity matrix, narrowed. -/
theorem V_v19 (c : Dev nD) :
    V m c main_v19 = narrowT (K.denseT (F := Ideal) (m ((c.tc : Thread nD τ).loc main_arg2)) (m ((c.tc : Thread nD τ).loc main_arg3))) := by
  show StableHlo.after hostOps0 (fun b => m (c, b)) (Proc.devRef .tc main_v19) = _
  after_results
  rfl

set_option maxHeartbeats 4000000 in
/-- The result array after the host's last lines: the product array picked at the query pairs. -/
theorem tail_v34 (c : Dev nD) :
    Pipeline.afterTail₀ cfgs (dats m) 0 (V0 m) [hostOps1] c main_v34
      = K.pickT ((dats m 0 c).arrAt 2 cfg0.N) (m ((c.tc : Thread nD τ).loc main_arg0)) (m ((c.tc : Thread nD τ).loc main_arg1)) := by
  unfold Pipeline.afterTail₀
  show StableHlo.after hostOps1 _ (Proc.devRef .tc main_v34) = _
  after_results
  rw [Pipeline.withArrays_arr spec0 launch0.win.arr_inj c _ _ 2,
    (Pipeline.withArrays_of_ne _ c (V0 m c) _ main_arg0 (by exact (by decide : ∀ w, Pipeline.arrRef spec0 w ≠ main_arg0))).trans (V_main_arg0 m c),
    (Pipeline.withArrays_of_ne _ c (V0 m c) _ main_arg1 (by exact (by decide : ∀ w, Pipeline.arrRef spec0 w ≠ main_arg1))).trans (V_main_arg1 m c)]
  rfl

/-- Coordinate 0 of query `b`'s pair: the wrapped user word. -/
theorem queryT_0 (u i : IVec S131072 32) (b : Fin 131072) : K.queryT u i (ix2 b (0 : Fin 2)) = wrap (u (ix1 b)) := by
  unfold K.queryT
  refine (concatenate_pair_apply_left (t := S131072x2) (s₁ := S131072x1) (s₂ := S131072x1) (1 : Fin 2) _ _ Cert.KernelIdeal.Gen.concatenates_S131072x1_S131072x1_S131072x2_d1
    (ix2 b (0 : Fin 2)) rfl (ix2 b (0 : Fin 1)) ?_).trans ?_
  · intro a
    match a with
    | ⟨0, _⟩ => rfl
    | ⟨1, _⟩ => rfl
  · refine (broadcastInDim_apply _ _ (K.wrapT u) (ix2 b (0 : Fin 1)) (ix1 b) ?_).trans rfl
    intro a
    match a with
    | ⟨0, _⟩ =>
      show b.val = if (131072 : ℕ) = 1 then 0 else b.val
      rw [if_neg (by decide)]

/-- Coordinate 1 of query `b`'s pair: the wrapped item word. -/
theorem queryT_1 (u i : IVec S131072 32) (b : Fin 131072) : K.queryT u i (ix2 b (1 : Fin 2)) = wrap (i (ix1 b)) := by
  unfold K.queryT
  refine (concatenate_pair_apply_right (t := S131072x2) (s₁ := S131072x1) (s₂ := S131072x1) (1 : Fin 2) _ _ Cert.KernelIdeal.Gen.concatenates_S131072x1_S131072x1_S131072x2_d1
    (ix2 b (1 : Fin 2)) rfl rfl (ix2 b (0 : Fin 1)) ?_ ?_).trans ?_
  · intro a ha
    match a, ha with
    | ⟨0, _⟩, _ => rfl
    | ⟨1, _⟩, ha => exact absurd rfl ha
  · rfl
  · refine (broadcastInDim_apply _ _ (K.wrapT i) (ix2 b (0 : Fin 1)) (ix1 b) ?_).trans rfl
    intro a
    match a with
    | ⟨0, _⟩ =>
      show b.val = if (131072 : ℕ) = 1 then 0 else b.val
      rw [if_neg (by decide)]

/-- The picked entries are the specification's `kscore`, when every neighbour index word is in range. -/
theorem result_eq (c : Dev nD) (hidx : ∀ y, InRange ((m ((c.tc : Thread nD τ).loc main_arg2)) y)) :
    K.pickT ((dats m 0 c).arrAt 2 cfg0.N) (m ((c.tc : Thread nD τ).loc main_arg0)) (m ((c.tc : Thread nD τ).loc main_arg1))
      = kscore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Blocks.final_S m c, V_v18 m c, V_v19 m c, narrowT_eq, narrowT_eq, denseT_eq _ _ hidx]
  funext b
  obtain ⟨b0, rfl⟩ : ∃ b0 : Fin 131072, b = ix1 b0 := ⟨b 0, eq_ix1 b⟩
  unfold K.pickT
  rw [pick2_apply, queryT_0, queryT_1]
  rfl

end Cert.Knn.Ker

namespace Cert.Knn.Ker

open Idealize.ShloMosaic.ValueIdx

/-- Every weakly fair execution of the idealized kernel program ends with its result at `kscore` and its
    arguments unchanged, when every neighbour index word is in range. -/
theorem run_kscore (m : (ℓ : Loc Cert.KernelIdeal.nD Cert.KernelIdeal.τ Cert.KernelIdeal.sig) → Buf (Elt Ideal) ℓ) (g : Dev Cert.KernelIdeal.nD → PrngReg)
    (hidx : ∀ (c : Dev Cert.KernelIdeal.nD) y, InRange ((m ((c.tc : Thread Cert.KernelIdeal.nD Cert.KernelIdeal.τ).loc Cert.KernelIdeal.main_arg2)) y)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v34)
        = kscore (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun _ h c =>
    ⟨((h c).2 Cert.KernelIdeal.main_v34 (Pipeline.mem_restRefs_of Cert.KernelIdeal.main_v34 (by decide) (by decide))).trans
        ((tail_v34 m c).trans (result_eq m c (hidx c))),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c)⟩)
    (Cert.KernelIdeal.Gen.run_main m g)

end Cert.Knn.Ker

end
-- ==== Proof.lean ====
/-
  Item-kNN retrieval score: the kernel program against its jnp reference, over the extended reals.

  The reference scores query b as the sum, over item I's 200 neighbours, of the similarity times user U's
  profile entry at the neighbour (U and I the wrapped, clamped user and item words of the query). The
  kernel program scatters the similarities into a dense 16384 × 16384 matrix, multiplies the profile
  matrix by its transpose — accumulated over eight column blocks of width 2048 on a 16 × 16 × 8 grid — and
  picks entry (U, I) of the product.

  The two agree when every neighbour index word is an index of the profile matrix's columns (outside that
  range the reference's gather clamps the word while the scatter drops the entry) and when the similarities
  and profile entries are real numbers: then a profile entry times a sum of similarities distributes, and
  regrouping the double sum by neighbour gives the reference's sum (`kscore_eq_score`).

  Modules: Spec (the mathematics), Algebra (the law), PreDecode (what the precondition says), Gather and
  Scatter (the host's gathers and scatter-add read at an index), KBlocks (the product array after the
  pallas_call), KHost (the kernel program's run), RefValue (the reference's run).
-/
import proofs.«400773_j62405874811872_1_alg».proof.Defs
import proofs.«400773_j62405874811872_1_alg».proof.Proof.Gen.Kernel
import proofs.«400773_j62405874811872_1_alg».proof.Proof.Gen.Kernel.Frame
import proofs.«400773_j62405874811872_1_alg».proof.Proof.Gen.KernelIdeal
import proofs.«400773_j62405874811872_1_alg».proof.Proof.Gen.KernelIdeal.Frame
import proofs.«400773_j62405874811872_1_alg».proof.Proof.Gen.ReferenceIdeal
import proofs.«400773_j62405874811872_1_alg».proof.Proof.Gen.Pre_finite_inputs
import proofs.«400773_j62405874811872_1_alg».proof.Proof.Algebra
import proofs.«400773_j62405874811872_1_alg».proof.Proof.PreDecode
import proofs.«400773_j62405874811872_1_alg».proof.Proof.RefValue
import proofs.«400773_j62405874811872_1_alg».proof.Proof.KHost

noncomputable section

namespace Cert.Proof

open Idealize.ShloMosaic Idealize.SL.Sem Cert.Knn

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run, with the result forgotten. -/
theorem frame_ri : Cert.frame_ReferenceIdeal := fun m ρ _ =>
  (θ_run Cert.ReferenceIdeal.defs _ _).mono (fun _ h c => (h c).2) (Cert.Knn.Ref.run_score m ρ)

/-- Under the precondition the kernel program ends at `kscore` of its arguments and the reference at `score`
    of arguments that agree; the two are one function on real-valued data. -/
theorem algebraic : Cert.algebraic_KernelIdeal_ReferenceIdeal := by
  intro m ρ m' ρ' hpre hagree
  have hd := fun c => Cert.Knn.decode _ _ _ _ _ (hpre c)
  refine ⟨fun c => kscore (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.Knn.Ker.run_kscore m ρ (fun c => (hd c).1), ?_⟩
  refine (θ_run Cert.ReferenceIdeal.defs _ _).mono (fun _ h c => ⟨(h c).1.trans ?_, (h c).2⟩) (Cert.Knn.Ref.run_score m' ρ')
  obtain ⟨h0, h1, h2, h3, h4⟩ := hagree c
  rw [h0, h1, h2, h3, h4]
  exact (kscore_eq_score _ _ _ _ _ (hd c).2.1 (hd c).2.2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
